-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S256 .f32) (main_arg9 : FVec F S256x64 .f32) (main_arg10 : FVec F S64 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S256x64 .f32) (main_arg6 : FVec F S64 .f32) (main_arg7 : FVec F S128x256 .f32) (main_arg8 : FVec F S256 .f32) (main_arg9 : FVec F S256x64 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S128x128 .f32) (main_arg3 : FVec F S128x256 .f32) (main_arg4 : FVec F S256 .f32) (main_arg5 : FVec F S256x64 .f32) (main_arg6 : FVec F S64 .f32) (main_arg7 : FVec F S128x256 .f32) (main_arg8 : FVec F S256 .f32) (main_arg9 : FVec F S256x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S512x64 : Shape := ⟨2, ![512, 64]⟩
abbrev S1x64 : Shape := ⟨2, ![1, 64]⟩
abbrev S1x256 : Shape := ⟨2, ![1, 256]⟩
abbrev S50000x64 : Shape := ⟨2, ![50000, 64]⟩
abbrev S4096x128 : Shape := ⟨2, ![4096, 128]⟩
abbrev S4096x1 : Shape := ⟨2, ![4096, 1]⟩
abbrev S4096x64 : Shape := ⟨2, ![4096, 64]⟩
abbrev S4096x256 : Shape := ⟨2, ![4096, 256]⟩
abbrev S4096x512 : Shape := ⟨2, ![4096, 512]⟩

abbrev nBuf : Space → Nat
  | .hbm => 49
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S128x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S50000x128, .bf16⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .bf16⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S512x64, .f32⟩
  | .hbm, ⟨44, _⟩ => ⟨S64, .f32⟩
  | .hbm, ⟨45, _⟩ => ⟨S1x64, .f32⟩
  | .hbm, ⟨46, _⟩ => ⟨S1x256, .f32⟩
  | .hbm, ⟨47, _⟩ => ⟨S1x256, .f32⟩
  | .hbm, ⟨48, _⟩ => ⟨S50000x64, .f32⟩
  | .local _ .vmem, ⟨0, _⟩ => ⟨S4096x128, .bf16⟩
  | .local _ .vmem, ⟨1, _⟩ => ⟨S4096x128, .bf16⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S128x128, .f32⟩
  | .local _ .vmem, ⟨7, _⟩ => ⟨S128x256, .f32⟩
  | .local _ .vmem, ⟨8, _⟩ => ⟨S1x256, .f32⟩
  | .local _ .vmem, ⟨9, _⟩ => ⟨S128x256, .f32⟩
  | .local _ .vmem, ⟨10, _⟩ => ⟨S1x256, .f32⟩
  | .local _ .vmem, ⟨11, _⟩ => ⟨S512x64, .f32⟩
  | .local _ .vmem, ⟨12, _⟩ => ⟨S1x64, .f32⟩
  | .local _ .vmem, ⟨13, _⟩ => ⟨S4096x64, .f32⟩
  | .local _ .vmem, ⟨14, _⟩ => ⟨S4096x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  bcast_S_S50000x1 : S_.BroadcastsInDim S50000x1 (![] : Fin 0 → Fin S50000x1.rank)
  concatenates_S256x64_S256x64_S512x64_d0 : Shape.Concatenates [S256x64, S256x64] S512x64 0
  shapeCasts_S64_S1x64 : S64.ShapeCasts S1x64
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  concatenates_S4096x256_S4096x256_S4096x512_d1 : Shape.Concatenates [S4096x256, S4096x256] S4096x512 1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S4096x128_S128x128_S4096x128_1_0_0_1_n_n_wf : DotDims.WF S4096x128 S128x128 S4096x128 [1] [0] [0] [1] [] []
  dot_S4096x128_S128x256_S4096x256_1_0_0_1_n_n_wf : DotDims.WF S4096x128 S128x256 S4096x256 [1] [0] [0] [1] [] []
  dot_S4096x512_S512x64_S4096x64_1_0_0_1_n_n_wf : DotDims.WF S4096x512 S512x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x128.size a < S50000x128.size a
  hwx0_0 : ∀ i : grid0.Coords, EltTy.bits .bf16 = 32 ∨ (Rect.unit (s := S50000x128) (fun a => cc0_transform_0 i a * S4096x128.size a) (fun a => (Pipeline.Clip.of (cc0_transform_0 i a) (S4096x128.size a) (S50000x128.size a)).extent (S4096x128.size a)) fun a => Pipeline.Clip.inb (Pipeline.Clip.ok_of (hstart0_0 i a))).WholeWords (EltTy.packing .bf16)
  hwxs0_0 : ∀ i : grid0.Coords, EltTy.bits .bf16 = 32 ∨ (Rect.unit (s := S4096x128) (fun _ => 0) (fun a => (Pipeline.Clip.of (cc0_transform_0 i a) (S4096x128.size a) (S50000x128.size a)).extent (S4096x128.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S50000x128.size a
  hwx0_1 : ∀ i : grid0.Coords, EltTy.bits .f32 = 32 ∨ (Rect.unit (s := S50000x128) (fun a => cc0_transform_1 i a * S4096x128.size a) (fun a => (Pipeline.Clip.of (cc0_transform_1 i a) (S4096x128.size a) (S50000x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S50000x128.size a)).extent (S4096x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x1.size a < S50000x1.size a
  hwx0_2 : ∀ i : grid0.Coords, EltTy.bits .f32 = 32 ∨ (Rect.unit (s := S50000x1) (fun a => cc0_transform_2 i a * S4096x1.size a) (fun a => (Pipeline.Clip.of (cc0_transform_2 i a) (S4096x1.size a) (S50000x1.size a)).extent (S4096x1.size a)) fun a => Pipeline.Clip.inb (Pipeline.Clip.ok_of (hstart0_2 i a))).WholeWords (EltTy.packing .f32)
  hwxs0_2 : ∀ i : grid0.Coords, EltTy.bits .f32 = 32 ∨ (Rect.unit (s := S4096x1) (fun _ => 0) (fun a => (Pipeline.Clip.of (cc0_transform_2 i a) (S4096x1.size a) (S50000x1.size a)).extent (S4096x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x64.size a ≤ S512x64.size a
  hwx0_8 : ∀ i : grid0.Coords, EltTy.bits .f32 = 32 ∨ (Rect.block (s := S512x64) S512x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S4096x64.size a < S50000x64.size a
  hwx0_10 : ∀ i : grid0.Coords, EltTy.bits .f32 = 32 ∨ (Rect.unit (s := S50000x64) (fun a => cc0_transform_10 i a * S4096x64.size a) (fun a => (Pipeline.Clip.of (cc0_transform_10 i a) (S4096x64.size a) (S50000x64.size a)).extent (S4096x64.size a)) fun a => Pipeline.Clip.inb (Pipeline.Clip.ok_of (hstart0_10 i a))).WholeWords (EltTy.packing .f32)
  hwxs0_10 : ∀ i : grid0.Coords, EltTy.bits .f32 = 32 ∨ (Rect.unit (s := S4096x64) (fun _ => 0) (fun a => (Pipeline.Clip.of (cc0_transform_10 i a) (S4096x64.size a) (S50000x64.size a)).extent (S4096x64.size a)) fun a => (Nat.zero_add _).trans_le (Pipeline.Clip.extent_le (Pipeline.Clip.ok_of (hstart0_10 i a)))).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

abbrev win0_0 : Pipeline.Window sig grid0 :=
  Pipeline.Window.ofSpecClip (Memref.whole main_v4) S4096x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v15) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v24) S4096x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S512x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpecClip (Memref.whole main_v30) S4096x64.size cc0_transform_10 reads0_10 true false 2 stage0_10 sem0_10
    hrank0 hreads0_10 hstart0_10 nbuf0_10 (Memref.isWhole_whole _) hwx0_10 hwxs0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S50000x64 : Shape := ⟨2, ![50000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S128x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.BodyWord.lean ====
/-
  The kernel body as one step: on whole staging buffers holding any ten input blocks, it reads all ten, computes
  one pure term of them, and overwrites the whole output buffer with it, leaving the inputs as they were.

  `blockOut` is that term, a function of the ten blocks: with x the feature block, s the block of neighbour sums and
  r the column of reciprocal degrees,
      mean = s · r (r spread along each row),   hop = mean · W_sage,
      h1 = relu(x · W1a + b1a),  h2 = relu(hop · W2a + b2a),   out = [h1 | h2] · W12 + b12,
  every product a matrix product into a zero accumulator. Nothing here depends on the float instance: the same text
  is read at the word level and on the extended reals.
-/
import proofs.«412223_j5385888989321_3_alg».proof.Proof.Gen.Kernel.Frame
import proofs.«412223_j5385888989321_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S4096x128 := Rect.unit (s := S4096x128) ![0, 0] S4096x128.size inb_S4096x128_S4096x128_0_0
abbrev rR : Rect S4096x1 := Rect.unit (s := S4096x1) ![0, 0] S4096x1.size inb_S4096x1_S4096x1_0_0
abbrev rWs : Rect S128x128 := Rect.unit (s := S128x128) ![0, 0] S128x128.size inb_S128x128_S128x128_0_0
abbrev rWa : Rect S128x256 := Rect.unit (s := S128x256) ![0, 0] S128x256.size inb_S128x256_S128x256_0_0
abbrev rBa : Rect S1x256 := Rect.unit (s := S1x256) ![0, 0] S1x256.size inb_S1x256_S1x256_0_0
abbrev rW12 : Rect S512x64 := Rect.unit (s := S512x64) ![0, 0] S512x64.size inb_S512x64_S512x64_0_0
abbrev rB12 : Rect S1x64 := Rect.unit (s := S1x64) ![0, 0] S1x64.size inb_S1x64_S1x64_0_0
abbrev rO : Rect S4096x64 := Rect.unit (s := S4096x64) ![0, 0] S4096x64.size inb_S4096x64_S4096x64_0_0

/-- What the body leaves in the output buffer, from the ten input buffers' contents: its one store, of the payload
    of the ten whole loads. -/
def blockOut (x0 : Vec F S4096x128 .bf16) (x1 : Vec F S4096x128 .f32) (x2 : Vec F S4096x1 .f32) (x3 : Vec F S128x128 .f32)
    (x4 : Vec F S128x256 .f32) (x5 : Vec F S1x256 .f32) (x6 : Vec F S128x256 .f32) (x7 : Vec F S1x256 .f32)
    (x8 : Vec F S512x64 .f32) (x9 : Vec F S1x64 .f32) : Vec F S4096x64 .f32 :=
  View.canon [⟨rO, k0_pay1 (k0_pay2 (View.ld x0 rX) (View.ld x1 rX) (View.ld x2 rR) (View.ld x3 rWs) (View.ld x4 rWa)
    (View.ld x5 rBa) (View.ld x6 rWa) (View.ld x7 rBa)) (k0_pay3 (View.ld x8 rW12)) (View.ld x9 rB12)⟩]

/-- The one store covers the output buffer. -/
theorem cover_out (p0 : Vec F S4096x64 .f32) (y : S4096x64.Idx) :
    ∃ pc ∈ ([⟨rO, p0⟩] : List (View.Piece (Elt F) S4096x64 .f32)), y ∈ pc.1.set :=
  View.cover_of_tiled [⟨rO, p0⟩] S4096x64.size (by rfl) y

set_option maxHeartbeats 2000000 in
/-- The body on whole staging memrefs, the ten inputs' at contents `x0 … x9` and the output's at anything, runs to the
    continuation with the inputs as they were and the output at `blockOut` of them. -/
theorem sound_kernel (c : Dev nD) (E : Set ℕ) (i : grid0.Coords)
    (arg1 : Memref sig .tc .vmem S4096x128 .bf16) (harg1 : arg1.IsWhole) (arg2 : Memref sig .tc .vmem S4096x128 .f32) (harg2 : arg2.IsWhole)
    (arg3 : Memref sig .tc .vmem S4096x1 .f32) (harg3 : arg3.IsWhole) (arg4 : Memref sig .tc .vmem S128x128 .f32) (harg4 : arg4.IsWhole)
    (arg5 : Memref sig .tc .vmem S128x256 .f32) (harg5 : arg5.IsWhole) (arg6 : Memref sig .tc .vmem S1x256 .f32) (harg6 : arg6.IsWhole)
    (arg7 : Memref sig .tc .vmem S128x256 .f32) (harg7 : arg7.IsWhole) (arg8 : Memref sig .tc .vmem S1x256 .f32) (harg8 : arg8.IsWhole)
    (arg9 : Memref sig .tc .vmem S512x64 .f32) (harg9 : arg9.IsWhole) (arg10 : Memref sig .tc .vmem S1x64 .f32) (harg10 : arg10.IsWhole)
    (arg11 : Memref sig .tc .vmem S4096x64 .f32) (harg11 : arg11.IsWhole)
    (x0 : Vec F S4096x128 .bf16) (x1 : Vec F S4096x128 .f32) (x2 : Vec F S4096x1 .f32) (x3 : Vec F S128x128 .f32)
    (x4 : Vec F S128x256 .f32) (x5 : Vec F S1x256 .f32) (x6 : Vec F S128x256 .f32) (x7 : Vec F S1x256 .f32)
    (x8 : Vec F S512x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (blockOut x0 x1 x2 x3 x4 x5 x6 x7 x8 x9)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover_out _)

end Cert.Kernel.Body

end
-- ==== Proof.WordFrame.lean ====
/-
  The frame of the word-level kernel.

  The program is one pipelined call over thirteen points and eleven windows. Windows 0, 1, 2 (the feature block, the
  block of neighbour sums, the column of reciprocal degrees) and window 10 (the output) move blocks of 4096 rows
  of arrays of 50000 rows, so the last block overhangs its array and only its rows inside the array are moved;
  windows 3 to 9 are whole arrays fetched once. At the word level the matrix products of the body are not
  interpreted, so nothing is stated of what the body leaves in the output's buffer: the output window is forgotten,
  and the inputs' arrays are read back as the region found them.
-/
import proofs.«412223_j5385888989321_3_alg».proof.Proof.BodyWord
import Idealize.ShloMosaic.Lib.Pipeline.Frame

set_option maxRecDepth 16384

noncomputable section

namespace Cert.Kernel.WordFrame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The output window is forgotten: nothing is stated of what the body leaves in its buffer. -/
def forgets : Fin 11 → Bool := fun w => w.val == 10

/-- The proof data of the one pipeline on core `c`: the arrays as the region finds them; after the body at point
    `t` each whole-array input's buffer at its block, each row-blocked input's buffer at its block filled out with
    zero words past the array's end, and the output's buffer at contents nothing names; the invariant the scoped
    rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .bf16 0#16) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t
    = win0_0.fill (grid0.coords t) (fun _ => Scalar.ofBits .bf16 0#16) (iblk m c 0 t) := by dsimp only [dats]
theorem after_1 (c : Dev nD) (t : Fin cfg0.N) : (dats m 0 c).after 1 t
    = win0_1.fill (grid0.coords t) (fun _ => Scalar.ofBits .f32 0#32) (iblk m c 1 t) := by dsimp only [dats]
theorem after_2 (c : Dev nD) (t : Fin cfg0.N) : (dats m 0 c).after 2 t
    = win0_2.fill (grid0.coords t) (fun _ => Scalar.ofBits .f32 0#32) (iblk m c 2 t) := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

/-! ## What the body finds -/

/-- A row-blocked input's buffer, fetched at every point, holds its block on the rows inside the array and what it
    held (`d`) past the array's end. -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]

/-- A whole-array input's buffer holds its array at every point, fetched there or not. -/
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-! ## The body obligation -/

theorem forgets_0 : forgets (0 : Fin 11) = false := rfl
theorem forgets_1 : forgets (1 : Fin 11) = false := rfl
theorem forgets_2 : forgets (2 : Fin 11) = false := rfl
theorem forgets_3 : forgets (3 : Fin 11) = false := rfl
theorem forgets_4 : forgets (4 : Fin 11) = false := rfl
theorem forgets_5 : forgets (5 : Fin 11) = false := rfl
theorem forgets_6 : forgets (6 : Fin 11) = false := rfl
theorem forgets_7 : forgets (7 : Fin 11) = false := rfl
theorem forgets_8 : forgets (8 : Fin 11) = false := rfl
theorem forgets_9 : forgets (9 : Fin 11) = false := rfl
theorem forgets_10 : forgets (10 : Fin 11) = true := rfl

/-- The rows inside the array of what the proof data names for a row-blocked input after the body are the
    input's block there. -/
theorem cut_after_0 (c : Dev nD) (t : Fin cfg0.N) :
    (win0 0).cut (grid0.coords t) ((dats m 0 c).after 0 t) = iblk m c 0 t := by
  rw [after_0]; exact win0_0.cut_fill _ _ _
theorem cut_after_1 (c : Dev nD) (t : Fin cfg0.N) :
    (win0 1).cut (grid0.coords t) ((dats m 0 c).after 1 t) = iblk m c 1 t := by
  rw [after_1]; exact win0_1.cut_fill _ _ _
theorem cut_after_2 (c : Dev nD) (t : Fin cfg0.N) :
    (win0 2).cut (grid0.coords t) ((dats m 0 c).after 2 t) = iblk m c 2 t := by
  rw [after_2]; exact win0_2.cut_fill _ _ _

set_option maxHeartbeats 1600000 in
/-- The body at any point: the row-blocked inputs' buffers arrive holding their blocks filled out past the array's
    end with what they held, the whole-array inputs' theirs, the output's anything; the body returns the inputs'
    buffers as it found them, which on the rows inside the array is all that is asked of a row-blocked input, and the
    output's at contents nothing names. -/
theorem body_obligation (c : Dev nD) :
    BodyObligationLoose (dats (F := F) m 0 c) (defs₀ (F := F)) Variants.none () Set.univ forgets := fun t => by
  rw [bigSep_W0, bigSep_W0]
  simp only [forgets_0, forgets_1, forgets_2, forgets_3, forgets_4, forgets_5, forgets_6, forgets_7, forgets_8,
    forgets_9, forgets_10]
  rw [show (dats m 0 c).Φ t.succ = (dats m 0 c).Φ t.castSucc from rfl,
    show (dats m 0 c).owesAt () t.succ = (dats m 0 c).owesAt () t.castSucc from rfl]
  rw [cut_after_0, cut_after_1, cut_after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%X, H10⟩⟩
  rw [before_0 m c t d0, before_1 m c t d1, before_2 m c t d2, before_3 m c t d3, before_4 m c t d4, before_5 m c t d5,
    before_6 m c t d6, before_7 m c t d7, before_8 m c t d8, before_9 m c t d9]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t)
    (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists X; iexact H10
  iintro ⟨H0, H1, H2, H3, H4, H5, H6, H7, H8, H9, H10⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-! ## The run -/

set_option backward.isDefEq.respectTransparency.types false in
/-- From any memory with zero counters, every weakly fair execution of the program on the cores terminates, and every
    final state has every input array of the pipeline as the region found it, nothing stated of the output's, and
    every other unscoped buffer at its region-entry contents. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- Every weakly fair execution of the program terminates without a fault and leaves the eleven argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r (h : Pipeline.RDat.FramePost (cfgs 0) (fun c => (dats m 0 c).toRForget forgets) (V m) r) c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((A_eq m c 3).trans (V_main_arg2 m c)),
      (Pipeline.RDat.FramePost.arr_in h c 4 rfl).trans ((A_eq m c 4).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 6 rfl).trans ((A_eq m c 6).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

end Cert.Kernel.WordFrame

end
-- ==== Proof.BodyIdeal.lean ====
/-
  The kernel body as one step: on whole staging buffers holding any ten input blocks, it reads all ten, computes
  one pure term of them, and overwrites the whole output buffer with it, leaving the inputs as they were.

  `blockOut` is that term, a function of the ten blocks: with x the feature block, s the block of neighbour sums and
  r the column of reciprocal degrees,
      mean = s · r (r spread along each row),   hop = mean · W_sage,
      h1 = relu(x · W1a + b1a),  h2 = relu(hop · W2a + b2a),   out = [h1 | h2] · W12 + b12,
  every product a matrix product into a zero accumulator. Nothing here depends on the float instance: the same text
  is read at the word level and on the extended reals.
-/
import proofs.«412223_j5385888989321_3_alg».proof.Proof.Gen.KernelIdeal.Frame
import proofs.«412223_j5385888989321_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S4096x128 := Rect.unit (s := S4096x128) ![0, 0] S4096x128.size inb_S4096x128_S4096x128_0_0
abbrev rR : Rect S4096x1 := Rect.unit (s := S4096x1) ![0, 0] S4096x1.size inb_S4096x1_S4096x1_0_0
abbrev rWs : Rect S128x128 := Rect.unit (s := S128x128) ![0, 0] S128x128.size inb_S128x128_S128x128_0_0
abbrev rWa : Rect S128x256 := Rect.unit (s := S128x256) ![0, 0] S128x256.size inb_S128x256_S128x256_0_0
abbrev rBa : Rect S1x256 := Rect.unit (s := S1x256) ![0, 0] S1x256.size inb_S1x256_S1x256_0_0
abbrev rW12 : Rect S512x64 := Rect.unit (s := S512x64) ![0, 0] S512x64.size inb_S512x64_S512x64_0_0
abbrev rB12 : Rect S1x64 := Rect.unit (s := S1x64) ![0, 0] S1x64.size inb_S1x64_S1x64_0_0
abbrev rO : Rect S4096x64 := Rect.unit (s := S4096x64) ![0, 0] S4096x64.size inb_S4096x64_S4096x64_0_0

/-- What the body leaves in the output buffer, from the ten input buffers' contents: its one store, of the payload
    of the ten whole loads. -/
def blockOut (x0 : Vec F S4096x128 .bf16) (x1 : Vec F S4096x128 .f32) (x2 : Vec F S4096x1 .f32) (x3 : Vec F S128x128 .f32)
    (x4 : Vec F S128x256 .f32) (x5 : Vec F S1x256 .f32) (x6 : Vec F S128x256 .f32) (x7 : Vec F S1x256 .f32)
    (x8 : Vec F S512x64 .f32) (x9 : Vec F S1x64 .f32) : Vec F S4096x64 .f32 :=
  View.canon [⟨rO, k0_pay1 (k0_pay2 (View.ld x0 rX) (View.ld x1 rX) (View.ld x2 rR) (View.ld x3 rWs) (View.ld x4 rWa)
    (View.ld x5 rBa) (View.ld x6 rWa) (View.ld x7 rBa)) (k0_pay3 (View.ld x8 rW12)) (View.ld x9 rB12)⟩]

/-- The one store covers the output buffer. -/
theorem cover_out (p0 : Vec F S4096x64 .f32) (y : S4096x64.Idx) :
    ∃ pc ∈ ([⟨rO, p0⟩] : List (View.Piece (Elt F) S4096x64 .f32)), y ∈ pc.1.set :=
  View.cover_of_tiled [⟨rO, p0⟩] S4096x64.size (by rfl) y

set_option maxHeartbeats 2000000 in
/-- The body on whole staging memrefs, the ten inputs' at contents `x0 … x9` and the output's at anything, runs to the
    continuation with the inputs as they were and the output at `blockOut` of them. -/
theorem sound_kernel (c : Dev nD) (E : Set ℕ) (i : grid0.Coords)
    (arg1 : Memref sig .tc .vmem S4096x128 .bf16) (harg1 : arg1.IsWhole) (arg2 : Memref sig .tc .vmem S4096x128 .f32) (harg2 : arg2.IsWhole)
    (arg3 : Memref sig .tc .vmem S4096x1 .f32) (harg3 : arg3.IsWhole) (arg4 : Memref sig .tc .vmem S128x128 .f32) (harg4 : arg4.IsWhole)
    (arg5 : Memref sig .tc .vmem S128x256 .f32) (harg5 : arg5.IsWhole) (arg6 : Memref sig .tc .vmem S1x256 .f32) (harg6 : arg6.IsWhole)
    (arg7 : Memref sig .tc .vmem S128x256 .f32) (harg7 : arg7.IsWhole) (arg8 : Memref sig .tc .vmem S1x256 .f32) (harg8 : arg8.IsWhole)
    (arg9 : Memref sig .tc .vmem S512x64 .f32) (harg9 : arg9.IsWhole) (arg10 : Memref sig .tc .vmem S1x64 .f32) (harg10 : arg10.IsWhole)
    (arg11 : Memref sig .tc .vmem S4096x64 .f32) (harg11 : arg11.IsWhole)
    (x0 : Vec F S4096x128 .bf16) (x1 : Vec F S4096x128 .f32) (x2 : Vec F S4096x1 .f32) (x3 : Vec F S128x128 .f32)
    (x4 : Vec F S128x256 .f32) (x5 : Vec F S1x256 .f32) (x6 : Vec F S128x256 .f32) (x7 : Vec F S1x256 .f32)
    (x8 : Vec F S512x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (blockOut x0 x1 x2 x3 x4 x5 x6 x7 x8 x9)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover_out _)

end Cert.KernelIdeal.Body

end
-- ==== Proof.Arrays.lean ====
/-
  Names, at their literal shapes, for the arrays of the idealized kernel's program: the eleven arguments as launched,
  and the ten arrays the one region stages as it finds them (after the host operations before it).
-/
import proofs.«412223_j5385888989321_3_alg».proof.Proof.Gen.KernelIdeal.Frame

noncomputable section

namespace Cert.KernelIdeal.Arrays

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD)

/-! ## The arguments as launched -/

abbrev inFeat : Vec F S50000x128 .f32 := m ((c : Thread nD τ).loc main_arg0)
abbrev inEdges : Vec F S2x600000 .i32 := m ((c : Thread nD τ).loc main_arg1)
abbrev inWs : Vec F S128x128 .f32 := m ((c : Thread nD τ).loc main_arg2)
abbrev inW1a : Vec F S128x256 .f32 := m ((c : Thread nD τ).loc main_arg3)
abbrev inB1a : Vec F S256 .f32 := m ((c : Thread nD τ).loc main_arg4)
abbrev inW1b : Vec F S256x64 .f32 := m ((c : Thread nD τ).loc main_arg5)
abbrev inB1b : Vec F S64 .f32 := m ((c : Thread nD τ).loc main_arg6)
abbrev inW2a : Vec F S128x256 .f32 := m ((c : Thread nD τ).loc main_arg7)
abbrev inB2a : Vec F S256 .f32 := m ((c : Thread nD τ).loc main_arg8)
abbrev inW2b : Vec F S256x64 .f32 := m ((c : Thread nD τ).loc main_arg9)
abbrev inB2b : Vec F S64 .f32 := m ((c : Thread nD τ).loc main_arg10)

/-! ## The arrays the region stages, as it finds them -/

/-- the features in the narrow format -/
abbrev stFeat : Vec F S50000x128 .bf16 := V m c main_v4
/-- the neighbour sums -/
abbrev stSums : Vec F S50000x128 .f32 := V m c main_v15
/-- the column of reciprocal degrees -/
abbrev stRecip : Vec F S50000x1 .f32 := V m c main_v24
abbrev stWs : Vec F S128x128 .f32 := V m c main_arg2
abbrev stW1a : Vec F S128x256 .f32 := V m c main_arg3
/-- the first hidden bias as a single row -/
abbrev stB1a : Vec F S1x256 .f32 := V m c main_v28
abbrev stW2a : Vec F S128x256 .f32 := V m c main_arg7
/-- the second hidden bias as a single row -/
abbrev stB2a : Vec F S1x256 .f32 := V m c main_v29
/-- the two output weight matrices stacked -/
abbrev stW12 : Vec F S512x64 .f32 := V m c main_v25
/-- the two output biases summed, as a single row -/
abbrev stB12 : Vec F S1x64 .f32 := V m c main_v27

end Cert.KernelIdeal.Arrays

end
-- ==== Proof.RowSpec.lean ====
/-
  One output row, as mathematics on the extended reals.

  Both programs compute, for every node `n`, a row of 64 numbers from the node's own feature row `x`, the sum `s` of
  its in-neighbours' feature rows and the number of those neighbours:
    mean     = s / max(deg, 1)
    one hop  = mean · W_sage
    branch 1 = relu(x · W1a + b1a) · W1b + b1b
    branch 2 = relu(one hop · W2a + b2a) · W2b + b2b
    result   = branch 1 + branch 2.
  The kernel multiplies by the reciprocal `1 / max(deg, 1)` where the reference divides, and it computes the two last
  products as ONE product of the two hidden rows laid side by side (512 entries) with the two weight matrices stacked
  (512 rows), adding the two biases first. `rowK` is the kernel's arrangement, `rowR` the reference's; `rowK_eq_rowR`
  says they agree whenever the divisor is not zero. The only laws used are that a quotient by a nonzero divisor is the
  product with its inverse, that a sum over 512 = 256 + 256 indices splits in two, and that addition of extended reals is
  commutative and associative: nothing here needs the entries to be finite.
-/
import Idealize.ShloMosaic.PureOps.Ideal
import Mathlib.Algebra.BigOperators.Fin

noncomputable section

open scoped BigOperators
open Idealize.ShloMosaic

namespace Cert.RowSpec

/-- A row of 128 entries times a 128 × 128 matrix. -/
def hop (s : Fin 128 → EReal) (W : Fin 128 → Fin 128 → EReal) (i : Fin 128) : EReal :=
  ∑ l, s l * W l i

/-- A hidden row: the rectified affine image of a row of 128 entries under a 128 × 256 matrix and a bias. -/
def hidden (r : Fin 128 → EReal) (W : Fin 128 → Fin 256 → EReal) (b : Fin 256 → EReal) (k : Fin 256) : EReal :=
  max ((∑ i, r i * W i k) + b k) 0

/-- Two families of 256 entries laid end to end. -/
def cat (a b : Fin 256 → EReal) (k : Fin 512) : EReal :=
  if h : k.val < 256 then a ⟨k.val, h⟩ else b ⟨k.val - 256, by have := k.isLt; omega⟩

/-- The kernel's arrangement of one output row: the mean as a product with `inv`, the two hidden rows side by side
    against one stacked matrix `W12`, one bias `b12`. -/
def rowK (x s : Fin 128 → EReal) (inv : EReal) (Ws : Fin 128 → Fin 128 → EReal)
    (W1a : Fin 128 → Fin 256 → EReal) (b1a : Fin 256 → EReal) (W2a : Fin 128 → Fin 256 → EReal) (b2a : Fin 256 → EReal)
    (W12 : Fin 512 → Fin 64 → EReal) (b12 : Fin 64 → EReal) (j : Fin 64) : EReal :=
  (∑ k : Fin 512, cat (hidden x W1a b1a) (hidden (hop (fun l => s l * inv) Ws) W2a b2a) k * W12 k j) + b12 j

/-- The reference's arrangement: the mean as a quotient by `d`, the two branches computed apart and added. -/
def rowR (x s : Fin 128 → EReal) (d : EReal) (Ws : Fin 128 → Fin 128 → EReal)
    (W1a : Fin 128 → Fin 256 → EReal) (b1a : Fin 256 → EReal) (W1b : Fin 256 → Fin 64 → EReal) (b1b : Fin 64 → EReal)
    (W2a : Fin 128 → Fin 256 → EReal) (b2a : Fin 256 → EReal) (W2b : Fin 256 → Fin 64 → EReal) (b2b : Fin 64 → EReal)
    (j : Fin 64) : EReal :=
  ((∑ k, hidden x W1a b1a k * W1b k j) + b1b j)
    + ((∑ k, hidden (hop (fun l => Ideal.div (s l) d) Ws) W2a b2a k * W2b k j) + b2b j)

/-- A sum over the 512 entries of two laid-out families, taken in products entry by entry, is the sum over the first
    halves plus the sum over the second halves. -/
theorem sum_cat_mul (a b a' b' : Fin 256 → EReal) :
    ∑ k : Fin 512, cat a b k * cat a' b' k = (∑ k, a k * a' k) + ∑ k, b k * b' k := by
  rw [show (∑ k : Fin 512, cat a b k * cat a' b' k) = ∑ k : Fin (256 + 256), cat a b k * cat a' b' k from rfl,
    Fin.sum_univ_add]
  congr 1

/-- A product with the reciprocal of a nonzero divisor is the quotient by it. -/
theorem mul_div_one {d : EReal} (hd : d ≠ 0) (a : EReal) : a * Ideal.div 1 d = Ideal.div a d := by
  unfold Ideal.div; rw [if_neg hd, if_neg hd, one_mul]

/-- The two arrangements of a row agree when the divisor is not zero. -/
theorem rowK_eq_rowR {d : EReal} (hd : d ≠ 0) (x s : Fin 128 → EReal) (Ws : Fin 128 → Fin 128 → EReal)
    (W1a : Fin 128 → Fin 256 → EReal) (b1a : Fin 256 → EReal) (W1b : Fin 256 → Fin 64 → EReal) (b1b : Fin 64 → EReal)
    (W2a : Fin 128 → Fin 256 → EReal) (b2a : Fin 256 → EReal) (W2b : Fin 256 → Fin 64 → EReal) (b2b : Fin 64 → EReal)
    (j : Fin 64) :
    rowK x s (Ideal.div 1 d) Ws W1a b1a W2a b2a (fun k j => cat (fun k' => W1b k' j) (fun k' => W2b k' j) k)
        (fun j => b1b j + b2b j) j
      = rowR x s d Ws W1a b1a W1b b1b W2a b2a W2b b2b j := by
  unfold rowK rowR
  rw [show (fun l => s l * Ideal.div 1 d) = fun l => Ideal.div (s l) d from funext fun l => mul_div_one hd (s l),
    sum_cat_mul]
  exact add_add_add_comm _ _ _ _

end Cert.RowSpec

end
-- ==== Proof.IdealData.lean ====
/-
  The idealized kernel's run, first part: what the result array holds in the end, as one function of the arrays the
  region finds, and the data the launch theorem asks for.

  Row n of the result is the kernel's arrangement of one output row (RowSpec.rowK) of row n of the staged feature
  array, row n of the staged neighbour sums, entry n of the staged column of reciprocal degrees, and the staged weights:
  `finalAt`, `finalOut`. The grid has 13 points; point t handles rows 4096·t … 4096·t + 4095, and at the last point
  only the first 848 of them exist (50000 = 12·4096 + 848): the three row-blocked inputs and the output are cut there.
  After the body at point t each row-blocked input's buffer holds its block (filled out with zeros past the array's end,
  where nothing is claimed), each whole-array input's buffer the array, and the output's buffer block t of `finalOut`
  (filled out likewise).
-/
import proofs.«412223_j5385888989321_3_alg».proof.Proof.BodyIdeal
import proofs.«412223_j5385888989321_3_alg».proof.Proof.Arrays
import proofs.«412223_j5385888989321_3_alg».proof.Proof.RowSpec
import Idealize.ShloMosaic.Lib.ValueIdx
import Idealize.ShloMosaic.Lib.Pipeline.Value

set_option maxRecDepth 16384

noncomputable section

namespace Cert.KernelIdeal.IdealData

open Cert.KernelIdeal Cert.KernelIdeal.Gen Cert.KernelIdeal.Body Cert.KernelIdeal.Arrays
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result, row by row -/

/-- Entry (n, j) of the result: the kernel's arrangement of row n. -/
def finalAt (c : Dev nD) (n : Fin 50000) (j : Fin 64) : EReal :=
  Cert.RowSpec.rowK (fun k => stFeat m c (ix2 n k)) (fun l => stSums m c (ix2 n l)) (stRecip m c (ix2 n (0 : Fin 1)))
    (fun l i => stWs m c (ix2 l i)) (fun i k => stW1a m c (ix2 i k)) (fun k => stB1a m c (ix2 (0 : Fin 1) k))
    (fun i k => stW2a m c (ix2 i k)) (fun k => stB2a m c (ix2 (0 : Fin 1) k))
    (fun k j => stW12 m c (ix2 k j)) (fun j => stB12 m c (ix2 (0 : Fin 1) j)) j

/-- The result array. -/
def finalOut (c : Dev nD) : Vec Ideal S50000x64 .f32 :=
  fun i => finalAt m c ⟨(i 0).val, idx2_lt0 i⟩ ⟨(i 1).val, idx2_lt1 i⟩

/-! ## The proof data -/

/-- The data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => win0_10.fill (grid0.coords t) (fun _ => (0 : EReal)) ((win0_10.blk t).view.read (Elt Ideal) (finalOut m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (fun _ => (0 : EReal)) (iblk m c 0 t) := by dsimp only [dats]
theorem after0_1 (c : Dev nD) (t : Fin cfg0.N) : (dats m 0 c).after 1 t = win0_1.fill (grid0.coords t) (fun _ => (0 : EReal)) (iblk m c 1 t) := by dsimp only [dats]
theorem after0_2 (c : Dev nD) (t : Fin cfg0.N) : (dats m 0 c).after 2 t = win0_2.fill (grid0.coords t) (fun _ => (0 : EReal)) (iblk m c 2 t) := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t
    = win0_10.fill (grid0.coords t) (fun _ => (0 : EReal)) ((win0_10.blk t).view.read (Elt Ideal) (finalOut m c)) := by dsimp only [dats]

/-! ## The thirteen points, decided once -/

/-- Point t's block of each row-blocked window is block t along the rows and block 0 along the columns. -/
theorem index_facts : ∀ t : Fin cfg0.N,
    win0_0.index t 0 = t.val ∧ win0_0.index t 1 = 0 ∧ win0_1.index t 0 = t.val ∧ win0_1.index t 1 = 0
      ∧ win0_2.index t 0 = t.val ∧ win0_2.index t 1 = 0 ∧ win0_10.index t 0 = t.val ∧ win0_10.index t 1 = 0 :=
  (by decide +kernel : ∀ t : Fin grid0.N, _)

/-- The four row-blocked windows are cut alike along the rows, not at all along the columns, and the cut part lies
    inside the 50000 rows. -/
theorem cut_facts : ∀ t : Fin cfg0.N,
    win0_0.xsize (grid0.coords t) 0 = win0_10.xsize (grid0.coords t) 0 ∧ win0_1.xsize (grid0.coords t) 0 = win0_10.xsize (grid0.coords t) 0
      ∧ win0_2.xsize (grid0.coords t) 0 = win0_10.xsize (grid0.coords t) 0
      ∧ win0_0.xsize (grid0.coords t) 1 = 128 ∧ win0_1.xsize (grid0.coords t) 1 = 128 ∧ win0_2.xsize (grid0.coords t) 1 = 1
      ∧ win0_10.xsize (grid0.coords t) 1 = 64 ∧ t.val * 4096 + win0_10.xsize (grid0.coords t) 0 ≤ 50000
      ∧ win0_10.xsize (grid0.coords t) 0 ≤ 4096 :=
  (by decide +kernel : ∀ t : Fin grid0.N, _)

/-- The whole-array windows sit at block 0 at every point. -/
theorem whole_facts : ∀ t : Fin cfg0.N,
    (∀ a, win0_3.index t a = 0) ∧ (∀ a, win0_4.index t a = 0) ∧ (∀ a, win0_5.index t a = 0) ∧ (∀ a, win0_6.index t a = 0)
      ∧ (∀ a, win0_7.index t a = 0) ∧ (∀ a, win0_8.index t a = 0) ∧ (∀ a, win0_9.index t a = 0) :=
  (by decide +kernel : ∀ t : Fin grid0.N, _)

end Cert.KernelIdeal.IdealData

end
-- ==== Proof.IdealBlocks.lean ====
/-
  The idealized kernel's run, second part: what the body finds in each staging buffer at a point, and each such
  buffer read at an entry as the staged array read at the entry's place in the array.

  A row-blocked window's buffer at point t, just fetched, holds rows 4096·t … of its array on the rows that exist and
  anything beyond; a whole-array window's buffer holds the array at every point; the output's buffer holds anything.
  Entry (p, k) of block t of a row-blocked array is entry (4096·t + p, k) of the array.
-/
import proofs.«412223_j5385888989321_3_alg».proof.Proof.IdealData

set_option maxRecDepth 16384

noncomputable section

namespace Cert.KernelIdeal.IdealBlocks

open Cert.KernelIdeal Cert.KernelIdeal.Gen Cert.KernelIdeal.Body Cert.KernelIdeal.Arrays Cert.KernelIdeal.IdealData
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## What the body finds -/

theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- The output's buffer is fresh at every point: the first, or one after a write-back. -/
theorem before0_10 (c : Dev nD) (t : Fin cfg0.N) (d) : (dats m 0 c).before 10 t d = d :=
  (dats m 0 c).before_out_reset 10 rfl t
    (by by_cases h : t.val = 0
        · exact .inl h
        · exact .inr ⟨h, flush0_10 _⟩) d

/-! ## Blocks read at an entry -/

/-- Entry y of block t of the feature array is the array at row 4096·t + y₀, column y₁. -/
theorem read0 (c : Dev nD) (t : Fin cfg0.N) (y : (win0_0.xblock (grid0.coords t)).Idx)
    (hy : t.val * 4096 + (y 0).val < 50000) (hk : (y 1).val < 128) :
    iblk m c 0 t y = stFeat m c (ix2 ⟨t.val * 4096 + (y 0).val, hy⟩ ⟨(y 1).val, hk⟩) := by
  unfold iblk
  rw [View.read_apply]
  show V m c main_v4 (((cfg0.win 0).blk t).view.emb y) = V m c main_v4 _
  refine congrArg (V m c main_v4) (funext fun a => Fin.ext ?_)
  match a with
  | ⟨0, _⟩ => show win0_0.index t 0 * 4096 + 1 * (y 0).val = _; rw [(index_facts t).1]; show _ = t.val * 4096 + (y 0).val; omega
  | ⟨1, _⟩ => show win0_0.index t 1 * 128 + 1 * (y 1).val = _; rw [(index_facts t).2.1]; show _ = (y 1).val; omega

/-- Entry y of block t of a 50000 × 128 array is the array at row 4096·t + y₀, column y₁ (for any contents of the array: the read only moves the index). -/
theorem blkRead1 (t : Fin cfg0.N) (f : Vec Ideal S50000x128 .f32) (y : (win0_1.xblock (grid0.coords t)).Idx)
    (hy : t.val * 4096 + (y 0).val < 50000) (hk : (y 1).val < 128) :
    (win0_1.blk t).view.read (Elt Ideal) f y = f (ix2 ⟨t.val * 4096 + (y 0).val, hy⟩ ⟨(y 1).val, hk⟩) := by
  rw [View.read_apply]
  refine congrArg f (funext fun a => Fin.ext ?_)
  match a with
  | ⟨0, _⟩ => show win0_1.index t 0 * 4096 + 1 * (y 0).val = _; rw [(index_facts t).2.2.1]; show _ = t.val * 4096 + (y 0).val; omega
  | ⟨1, _⟩ => show win0_1.index t 1 * 128 + 1 * (y 1).val = _; rw [(index_facts t).2.2.2.1]; show _ = (y 1).val; omega

theorem read1 (c : Dev nD) (t : Fin cfg0.N) (y : (win0_1.xblock (grid0.coords t)).Idx)
    (hy : t.val * 4096 + (y 0).val < 50000) (hk : (y 1).val < 128) :
    iblk m c 1 t y = stSums m c (ix2 ⟨t.val * 4096 + (y 0).val, hy⟩ ⟨(y 1).val, hk⟩) :=
  blkRead1 t (stSums m c) y hy hk

/-- Entry y of block t of a 50000 × 1 column is the column at row 4096·t + y₀ (for any contents of the array: the read only moves the index). -/
theorem blkRead2 (t : Fin cfg0.N) (f : Vec Ideal S50000x1 .f32) (y : (win0_2.xblock (grid0.coords t)).Idx)
    (hy : t.val * 4096 + (y 0).val < 50000) (hk : (y 1).val < 1) :
    (win0_2.blk t).view.read (Elt Ideal) f y = f (ix2 ⟨t.val * 4096 + (y 0).val, hy⟩ ⟨(y 1).val, hk⟩) := by
  rw [View.read_apply]
  refine congrArg f (funext fun a => Fin.ext ?_)
  match a with
  | ⟨0, _⟩ => show win0_2.index t 0 * 4096 + 1 * (y 0).val = _; rw [(index_facts t).2.2.2.2.1]; show _ = t.val * 4096 + (y 0).val; omega
  | ⟨1, _⟩ => show win0_2.index t 1 * 1 + 1 * (y 1).val = _; rw [(index_facts t).2.2.2.2.2.1]; show _ = (y 1).val; omega

theorem read2 (c : Dev nD) (t : Fin cfg0.N) (y : (win0_2.xblock (grid0.coords t)).Idx)
    (hy : t.val * 4096 + (y 0).val < 50000) (hk : (y 1).val < 1) :
    iblk m c 2 t y = stRecip m c (ix2 ⟨t.val * 4096 + (y 0).val, hy⟩ ⟨(y 1).val, hk⟩) :=
  blkRead2 t (stRecip m c) y hy hk

/-- A whole-array window's block is the array. -/
theorem read3 (c : Dev nD) (t : Fin cfg0.N) (y : (win0_3.xblock (grid0.coords t)).Idx)
    (h0 : (y 0).val < 128) (h1 : (y 1).val < 128) :
    iblk m c 3 t y = stWs m c (ix2 ⟨(y 0).val, h0⟩ ⟨(y 1).val, h1⟩) := by
  unfold iblk
  rw [View.read_apply]
  show V m c main_arg2 (((cfg0.win 3).blk t).view.emb y) = V m c main_arg2 _
  refine congrArg (V m c main_arg2) (funext fun a => Fin.ext ?_)
  match a with
  | ⟨0, _⟩ => show win0_3.index t 0 * 128 + 1 * (y 0).val = _; rw [(whole_facts t).1 0]; show _ = (y 0).val; omega
  | ⟨1, _⟩ => show win0_3.index t 1 * 128 + 1 * (y 1).val = _; rw [(whole_facts t).1 1]; show _ = (y 1).val; omega

/-- A whole-array window's block is the array. -/
theorem read4 (c : Dev nD) (t : Fin cfg0.N) (y : (win0_4.xblock (grid0.coords t)).Idx)
    (h0 : (y 0).val < 128) (h1 : (y 1).val < 256) :
    iblk m c 4 t y = stW1a m c (ix2 ⟨(y 0).val, h0⟩ ⟨(y 1).val, h1⟩) := by
  unfold iblk
  rw [View.read_apply]
  show V m c main_arg3 (((cfg0.win 4).blk t).view.emb y) = V m c main_arg3 _
  refine congrArg (V m c main_arg3) (funext fun a => Fin.ext ?_)
  match a with
  | ⟨0, _⟩ => show win0_4.index t 0 * 128 + 1 * (y 0).val = _; rw [(whole_facts t).2.1 0]; show _ = (y 0).val; omega
  | ⟨1, _⟩ => show win0_4.index t 1 * 256 + 1 * (y 1).val = _; rw [(whole_facts t).2.1 1]; show _ = (y 1).val; omega

/-- A whole-array window's block is the array. -/
theorem read5 (c : Dev nD) (t : Fin cfg0.N) (y : (win0_5.xblock (grid0.coords t)).Idx)
    (h0 : (y 0).val < 1) (h1 : (y 1).val < 256) :
    iblk m c 5 t y = stB1a m c (ix2 ⟨(y 0).val, h0⟩ ⟨(y 1).val, h1⟩) := by
  unfold iblk
  rw [View.read_apply]
  show V m c main_v28 (((cfg0.win 5).blk t).view.emb y) = V m c main_v28 _
  refine congrArg (V m c main_v28) (funext fun a => Fin.ext ?_)
  match a with
  | ⟨0, _⟩ => show win0_5.index t 0 * 1 + 1 * (y 0).val = _; rw [(whole_facts t).2.2.1 0]; show _ = (y 0).val; omega
  | ⟨1, _⟩ => show win0_5.index t 1 * 256 + 1 * (y 1).val = _; rw [(whole_facts t).2.2.1 1]; show _ = (y 1).val; omega

/-- A whole-array window's block is the array. -/
theorem read6 (c : Dev nD) (t : Fin cfg0.N) (y : (win0_6.xblock (grid0.coords t)).Idx)
    (h0 : (y 0).val < 128) (h1 : (y 1).val < 256) :
    iblk m c 6 t y = stW2a m c (ix2 ⟨(y 0).val, h0⟩ ⟨(y 1).val, h1⟩) := by
  unfold iblk
  rw [View.read_apply]
  show V m c main_arg7 (((cfg0.win 6).blk t).view.emb y) = V m c main_arg7 _
  refine congrArg (V m c main_arg7) (funext fun a => Fin.ext ?_)
  match a with
  | ⟨0, _⟩ => show win0_6.index t 0 * 128 + 1 * (y 0).val = _; rw [(whole_facts t).2.2.2.1 0]; show _ = (y 0).val; omega
  | ⟨1, _⟩ => show win0_6.index t 1 * 256 + 1 * (y 1).val = _; rw [(whole_facts t).2.2.2.1 1]; show _ = (y 1).val; omega

/-- A whole-array window's block is the array. -/
theorem read7 (c : Dev nD) (t : Fin cfg0.N) (y : (win0_7.xblock (grid0.coords t)).Idx)
    (h0 : (y 0).val < 1) (h1 : (y 1).val < 256) :
    iblk m c 7 t y = stB2a m c (ix2 ⟨(y 0).val, h0⟩ ⟨(y 1).val, h1⟩) := by
  unfold iblk
  rw [View.read_apply]
  show V m c main_v29 (((cfg0.win 7).blk t).view.emb y) = V m c main_v29 _
  refine congrArg (V m c main_v29) (funext fun a => Fin.ext ?_)
  match a with
  | ⟨0, _⟩ => show win0_7.index t 0 * 1 + 1 * (y 0).val = _; rw [(whole_facts t).2.2.2.2.1 0]; show _ = (y 0).val; omega
  | ⟨1, _⟩ => show win0_7.index t 1 * 256 + 1 * (y 1).val = _; rw [(whole_facts t).2.2.2.2.1 1]; show _ = (y 1).val; omega

/-- A whole-array window's block is the array. -/
theorem read8 (c : Dev nD) (t : Fin cfg0.N) (y : (win0_8.xblock (grid0.coords t)).Idx)
    (h0 : (y 0).val < 512) (h1 : (y 1).val < 64) :
    iblk m c 8 t y = stW12 m c (ix2 ⟨(y 0).val, h0⟩ ⟨(y 1).val, h1⟩) := by
  unfold iblk
  rw [View.read_apply]
  show V m c main_v25 (((cfg0.win 8).blk t).view.emb y) = V m c main_v25 _
  refine congrArg (V m c main_v25) (funext fun a => Fin.ext ?_)
  match a with
  | ⟨0, _⟩ => show win0_8.index t 0 * 512 + 1 * (y 0).val = _; rw [(whole_facts t).2.2.2.2.2.1 0]; show _ = (y 0).val; omega
  | ⟨1, _⟩ => show win0_8.index t 1 * 64 + 1 * (y 1).val = _; rw [(whole_facts t).2.2.2.2.2.1 1]; show _ = (y 1).val; omega

/-- A whole-array window's block is the array. -/
theorem read9 (c : Dev nD) (t : Fin cfg0.N) (y : (win0_9.xblock (grid0.coords t)).Idx)
    (h0 : (y 0).val < 1) (h1 : (y 1).val < 64) :
    iblk m c 9 t y = stB12 m c (ix2 ⟨(y 0).val, h0⟩ ⟨(y 1).val, h1⟩) := by
  unfold iblk
  rw [View.read_apply]
  show V m c main_v27 (((cfg0.win 9).blk t).view.emb y) = V m c main_v27 _
  refine congrArg (V m c main_v27) (funext fun a => Fin.ext ?_)
  match a with
  | ⟨0, _⟩ => show win0_9.index t 0 * 1 + 1 * (y 0).val = _; rw [(whole_facts t).2.2.2.2.2.2 0]; show _ = (y 0).val; omega
  | ⟨1, _⟩ => show win0_9.index t 1 * 64 + 1 * (y 1).val = _; rw [(whole_facts t).2.2.2.2.2.2 1]; show _ = (y 1).val; omega

/-- A just-fetched buffer of window 0, whatever lay in it before, read at a row the cut keeps. -/
theorem fill0_apply (c : Dev nD) (t : Fin cfg0.N) (d) (p : Fin 4096) (k : Fin 128)
    (hp : p.val < win0_10.xsize (grid0.coords t) 0) (hn : t.val * 4096 + p.val < 50000) :
    win0_0.fill (grid0.coords t) d (iblk m c 0 t) (ix2 p k) = stFeat m c (ix2 ⟨t.val * 4096 + p.val, hn⟩ k) := by
  have hm : win0_0.moved (grid0.coords t) (ix2 p k) = true := (win0_0.moved_iff _ _).mpr fun a => by
    match a with
    | ⟨0, _⟩ => show p.val < win0_0.xsize (grid0.coords t) 0; rw [(cut_facts t).1]; exact hp
    | ⟨1, _⟩ => show k.val < win0_0.xsize (grid0.coords t) 1; rw [(cut_facts t).2.2.2.1]; exact k.isLt
  unfold Window.fill; rw [dif_pos hm]
  exact read0 m c t _ hn k.isLt

/-- A just-fetched buffer of window 1, whatever lay in it before, read at a row the cut keeps. -/
theorem fill1_apply (c : Dev nD) (t : Fin cfg0.N) (d) (p : Fin 4096) (k : Fin 128)
    (hp : p.val < win0_10.xsize (grid0.coords t) 0) (hn : t.val * 4096 + p.val < 50000) :
    win0_1.fill (grid0.coords t) d (iblk m c 1 t) (ix2 p k) = stSums m c (ix2 ⟨t.val * 4096 + p.val, hn⟩ k) := by
  have hm : win0_1.moved (grid0.coords t) (ix2 p k) = true := (win0_1.moved_iff _ _).mpr fun a => by
    match a with
    | ⟨0, _⟩ => show p.val < win0_1.xsize (grid0.coords t) 0; rw [(cut_facts t).2.1]; exact hp
    | ⟨1, _⟩ => show k.val < win0_1.xsize (grid0.coords t) 1; rw [(cut_facts t).2.2.2.2.1]; exact k.isLt
  unfold Window.fill; rw [dif_pos hm]
  exact read1 m c t _ hn k.isLt

/-- A just-fetched buffer of window 2, whatever lay in it before, read at a row the cut keeps. -/
theorem fill2_apply (c : Dev nD) (t : Fin cfg0.N) (d) (p : Fin 4096) (k : Fin 1)
    (hp : p.val < win0_10.xsize (grid0.coords t) 0) (hn : t.val * 4096 + p.val < 50000) :
    win0_2.fill (grid0.coords t) d (iblk m c 2 t) (ix2 p k) = stRecip m c (ix2 ⟨t.val * 4096 + p.val, hn⟩ k) := by
  have hm : win0_2.moved (grid0.coords t) (ix2 p k) = true := (win0_2.moved_iff _ _).mpr fun a => by
    match a with
    | ⟨0, _⟩ => show p.val < win0_2.xsize (grid0.coords t) 0; rw [(cut_facts t).2.2.1]; exact hp
    | ⟨1, _⟩ => show k.val < win0_2.xsize (grid0.coords t) 1; rw [(cut_facts t).2.2.2.2.2.1]; exact k.isLt
  unfold Window.fill; rw [dif_pos hm]
  exact read2 m c t _ hn k.isLt

/-- Entry y of block t of the result array is the result at row 4096·t + y₀, column y₁. -/
theorem readOut (c : Dev nD) (t : Fin cfg0.N) (y : (win0_10.xblock (grid0.coords t)).Idx)
    (hy : t.val * 4096 + (y 0).val < 50000) (hq : (y 1).val < 64) :
    (win0_10.blk t).view.read (Elt Ideal) (finalOut m c) y = finalAt m c ⟨t.val * 4096 + (y 0).val, hy⟩ ⟨(y 1).val, hq⟩ := by
  rw [View.read_apply]
  unfold finalOut
  have e0 : (((win0_10.blk t).view.emb y) 0).val = t.val * 4096 + (y 0).val := by
    show win0_10.index t 0 * 4096 + 1 * (y 0).val = _; rw [(index_facts t).2.2.2.2.2.2.1]; omega
  have e1 : (((win0_10.blk t).view.emb y) 1).val = (y 1).val := by
    show win0_10.index t 1 * 64 + 1 * (y 1).val = _; rw [(index_facts t).2.2.2.2.2.2.2]; omega
  exact congrArg₂ (finalAt m c) (Fin.ext e0) (Fin.ext e1)

end Cert.KernelIdeal.IdealBlocks

end
-- ==== Proof.PayloadRow.lean ====
/-
  The body's output block read at one entry.
-/
import proofs.«412223_j5385888989321_3_alg».proof.Proof.BodyIdeal
import proofs.«412223_j5385888989321_3_alg».proof.Proof.RowSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.PayloadRow

open Cert.KernelIdeal Cert.KernelIdeal.Gen Cert.KernelIdeal.Body
open Idealize.ShloMosaic Idealize.ShloMosaic.ValueIdx
open scoped BigOperators

/-! ## A matrix product into a zero accumulator, read at an entry

For each of the three contractions: the operand indices at output entry (p, c) and contraction coordinate l are
(p, l) on the left and (l, c) on the right, axis by axis; so the entry is the plain sum over l of the products. -/

theorem lhs_hop_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem lhs_hop_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_hop_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_hop_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- Entry (p, c) of a 4096 × 128 block times a 128 × 128 matrix, into zero: the sum over the 128 products. -/
theorem matmul_hop_apply (a : FVec Ideal S4096x128 .bf16) (b : FVec Ideal S128x128 .bf16) (p : Fin 4096) (c : Fin 128) :
    matmul dot_S4096x128_S128x128_S4096x128_1_0_0_1_n_n none a b (constant (F := Ideal) S4096x128 .f32 0x00000000#32) (ix2 p c)
      = ∑ l : Fin 128, a (ix2 p l) * b (ix2 l c) := by
  refine (Ideal.matmul_constant_zero_apply dot_S4096x128_S128x128_S4096x128_1_0_0_1_n_n none a b (ix2 p c)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p c) ((contrEquiv1 dot_S4096x128_S128x128_S4096x128_1_0_0_1_n_n 128 rfl rfl).symm k) = ix2 p k :=
    funext fun ax => Fin.ext (by
      match ax with
      | ⟨0, _⟩ => exact lhs_hop_0 _ _
      | ⟨1, _⟩ => exact (lhs_hop_1 _ _).trans hk)
  have er : dot_S4096x128_S128x128_S4096x128_1_0_0_1_n_n.rhsIdx (ix2 p c) ((contrEquiv1 dot_S4096x128_S128x128_S4096x128_1_0_0_1_n_n 128 rfl rfl).symm k) = ix2 k c :=
    funext fun ax => Fin.ext (by
      match ax with
      | ⟨0, _⟩ => exact (rhs_hop_0 _ _).trans hk
      | ⟨1, _⟩ => exact rhs_hop_1 _ _)
  rw [el, er]

theorem lhs_hid_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl
theorem lhs_hid_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhs_hid_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhs_hid_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- Entry (p, c) of a 4096 × 128 block times a 128 × 256 matrix, into zero: the sum over the 128 products. -/
theorem matmul_hid_apply (a : FVec Ideal S4096x128 .bf16) (b : FVec Ideal S128x256 .bf16) (p : Fin 4096) (c : Fin 256) :
    matmul dot_S4096x128_S128x256_S4096x256_1_0_0_1_n_n none a b (constant (F := Ideal) S4096x256 .f32 0x00000000#32) (ix2 p c)
      = ∑ l : Fin 128, a (ix2 p l) * b (ix2 l c) := by
  refine (Ideal.matmul_constant_zero_apply dot_S4096x128_S128x256_S4096x256_1_0_0_1_n_n none a b (ix2 p c)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p c) ((contrEquiv1 dot_S4096x128_S128x256_S4096x256_1_0_0_1_n_n 128 rfl rfl).symm k) = ix2 p k :=
    funext fun ax => Fin.ext (by
      match ax with
      | ⟨0, _⟩ => exact lhs_hid_0 _ _
      | ⟨1, _⟩ => exact (lhs_hid_1 _ _).trans hk)
  have er : dot_S4096x128_S128x256_S4096x256_1_0_0_1_n_n.rhsIdx (ix2 p c) ((contrEquiv1 dot_S4096x128_S128x256_S4096x256_1_0_0_1_n_n 128 rfl rfl).symm k) = ix2 k c :=
    funext fun ax => Fin.ext (by
      match ax with
      | ⟨0, _⟩ => exact (rhs_hid_0 _ _).trans hk
      | ⟨1, _⟩ => exact rhs_hid_1 _ _)
  rw [el, er]

theorem lhs_out_0 (i : S4096x64.Idx) (q : dot_S4096x512_S512x64_S4096x64_1_0_0_1_n_n.contr.Idx) :
    (dot_S4096x512_S512x64_S4096x64_1_0_0_1_n_n.lhsIdx i q 0).val = (i 0).val := by
  unfold DotDims.lhsIdx
  rw [dif_neg (show ¬(0 : Fin S4096x512.rank) ∈ dot_S4096x512_S512x64_S4096x64_1_0_0_1_n_n.lhsBatch by decide),
    dif_pos (show (0 : Fin S4096x512.rank) ∈ dot_S4096x512_S512x64_S4096x64_1_0_0_1_n_n.lhsNonContracting by decide)]
  rfl
theorem lhs_out_1 (i : S4096x64.Idx) (q : dot_S4096x512_S512x64_S4096x64_1_0_0_1_n_n.contr.Idx) :
    (dot_S4096x512_S512x64_S4096x64_1_0_0_1_n_n.lhsIdx i q 1).val = (q ⟨0, by decide⟩).val :=
  dot_S4096x512_S512x64_S4096x64_1_0_0_1_n_n.lhsIdx_val_of_single rfl i q
theorem rhs_out_0 (i : S4096x64.Idx) (q : dot_S4096x512_S512x64_S4096x64_1_0_0_1_n_n.contr.Idx) :
    (dot_S4096x512_S512x64_S4096x64_1_0_0_1_n_n.rhsIdx i q 0).val = (q ⟨0, by decide⟩).val :=
  dot_S4096x512_S512x64_S4096x64_1_0_0_1_n_n.rhsIdx_val_of_single rfl i q
theorem rhs_out_1 (i : S4096x64.Idx) (q : dot_S4096x512_S512x64_S4096x64_1_0_0_1_n_n.contr.Idx) :
    (dot_S4096x512_S512x64_S4096x64_1_0_0_1_n_n.rhsIdx i q 1).val = (i 1).val := by
  unfold DotDims.rhsIdx
  rw [dif_neg (show ¬(1 : Fin S512x64.rank) ∈ dot_S4096x512_S512x64_S4096x64_1_0_0_1_n_n.rhsBatch by decide),
    dif_pos (show (1 : Fin S512x64.rank) ∈ dot_S4096x512_S512x64_S4096x64_1_0_0_1_n_n.rhsNonContracting by decide)]
  rfl

/-- Entry (p, c) of a 4096 × 512 block times a 512 × 64 matrix, into zero: the sum over the 512 products. -/
theorem matmul_out_apply (a : FVec Ideal S4096x512 .bf16) (b : FVec Ideal S512x64 .bf16) (p : Fin 4096) (c : Fin 64) :
    matmul dot_S4096x512_S512x64_S4096x64_1_0_0_1_n_n none a b (constant (F := Ideal) S4096x64 .f32 0x00000000#32) (ix2 p c)
      = ∑ l : Fin 512, a (ix2 p l) * b (ix2 l c) := by
  refine (Ideal.matmul_constant_zero_apply dot_S4096x512_S512x64_S4096x64_1_0_0_1_n_n none a b (ix2 p c)).trans ?_
  rw [← Equiv.sum_comp (contrEquiv1 dot_S4096x512_S512x64_S4096x64_1_0_0_1_n_n 512 rfl rfl).symm]
  refine Finset.sum_congr rfl fun k _ => ?_
  have hk := contrEquiv1_symm_val dot_S4096x512_S512x64_S4096x64_1_0_0_1_n_n 512 rfl rfl k
  have el : dot_S4096x512_S512x64_S4096x64_1_0_0_1_n_n.lhsIdx (ix2 p c) ((contrEquiv1 dot_S4096x512_S512x64_S4096x64_1_0_0_1_n_n 512 rfl rfl).symm k) = ix2 p k :=
    funext fun ax => Fin.ext (by
      match ax with
      | ⟨0, _⟩ => exact lhs_out_0 _ _
      | ⟨1, _⟩ => exact (lhs_out_1 _ _).trans hk)
  have er : dot_S4096x512_S512x64_S4096x64_1_0_0_1_n_n.rhsIdx (ix2 p c) ((contrEquiv1 dot_S4096x512_S512x64_S4096x64_1_0_0_1_n_n 512 rfl rfl).symm k) = ix2 k c :=
    funext fun ax => Fin.ext (by
      match ax with
      | ⟨0, _⟩ => exact (rhs_out_0 _ _).trans hk
      | ⟨1, _⟩ => exact rhs_out_1 _ _)
  rw [el, er]

/-! ## A column spread along rows, and two blocks laid side by side -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two 4096 × 256 blocks concatenated along the columns, read at `(p, k)`: the two rows `p` laid end to end, at `k`. -/
theorem concatenate_apply {α : Type} (h : Shape.Concatenates [S4096x256, S4096x256] S4096x512 1)
    (a b : S4096x256.Idx → α) (p : Fin 4096) (k : Fin 512) :
    concatenate S4096x512 1 [⟨S4096x256, a⟩, ⟨S4096x256, b⟩] h (ix2 p k)
      = if hk : k.val < 256 then a (ix2 p ⟨k.val, hk⟩) else b (ix2 p ⟨k.val - 256, by have := k.isLt; omega⟩) := by
  by_cases hk : k.val < 256
  · rw [dif_pos hk]
    refine concatenate_pair_apply_left (1 : Fin S4096x512.rank) a b h (ix2 p k) rfl (ix2 p ⟨k.val, hk⟩) fun ax => ?_
    match ax with
    | ⟨0, _⟩ => rfl
    | ⟨1, _⟩ => rfl
  · rw [dif_neg hk]
    refine concatenate_pair_apply_right (1 : Fin S4096x512.rank) a b h (ix2 p k) rfl rfl
      (ix2 p ⟨k.val - 256, by have := k.isLt; omega⟩) (fun ax hax => ?_) ?_
    · match ax with
      | ⟨0, _⟩ => rfl
      | ⟨1, _⟩ => exact absurd rfl hax
    · show k.val - 256 + 256 = k.val
      omega

/-! ## The three stages of the body's arithmetic, read at an entry

Format changes are the identity on extended reals, a cast to the same shape is the identity, and the zero word reads as
the number zero; with the products above, each stage is the corresponding plain sum of `Cert.RowSpec`. -/

/-- The one-hop stage at entry (p, i): row p of the sums, each entry times the reciprocal degree of row p, times the
    128 × 128 matrix. -/
theorem hop_stage (s : FVec Ideal S4096x128 .f32) (r : FVec Ideal S4096x1 .f32) (Ws : FVec Ideal S128x128 .f32)
    (hs : S4096x128.ShapeCasts S4096x128) (hr : S4096x1.ShapeCasts S4096x1) (hb : S4096x1.Broadcasts S4096x128)
    (hlt : FTy.bits .bf16 < FTy.bits .f32) (p : Fin 4096) (i : Fin 128) :
    matmul dot_S4096x128_S128x128_S4096x128_1_0_0_1_n_n none
        (truncf .bf16 (mulf (shapeCast S4096x128 s hs) (broadcastTo S4096x128 (shapeCast S4096x1 r hr) hb)) hlt)
        (truncf .bf16 Ws hlt) (constant (F := Ideal) S4096x128 .f32 0x00000000#32) (ix2 p i)
      = Cert.RowSpec.hop (fun l => s (ix2 p l) * r (ix2 p (0 : Fin 1))) (fun l i => Ws (ix2 l i)) i := by
  rw [shapeCast_self, shapeCast_self]
  refine (matmul_hop_apply _ _ p i).trans ?_
  unfold Cert.RowSpec.hop
  refine Finset.sum_congr rfl fun l _ => ?_
  show s (ix2 p l) * broadcastTo S4096x128 r hb (ix2 p l) * Ws (ix2 l i) = s (ix2 p l) * r (ix2 p (0 : Fin 1)) * Ws (ix2 l i)
  rw [broadcastTo_a1_ab_apply]

/-- A hidden stage at entry (p, k): row p of the operand times the 128 × 256 matrix, plus the bias, rectified. -/
theorem hidden_stage (r : FVec Ideal S4096x128 .bf16) (W : FVec Ideal S128x256 .f32) (b : FVec Ideal S1x256 .f32)
    (hs : S1x256.ShapeCasts S1x256) (hb : S1x256.Broadcasts S4096x256)
    (hlt : FTy.bits .bf16 < FTy.bits .f32) (p : Fin 4096) (k : Fin 256) :
    truncf .bf16 (maximumf
        (addf (matmul dot_S4096x128_S128x256_S4096x256_1_0_0_1_n_n none r (truncf .bf16 W hlt)
            (constant (F := Ideal) S4096x256 .f32 0x00000000#32))
          (broadcastTo S4096x256 (shapeCast S1x256 b hs) hb))
        (broadcast S4096x256 (Scalar.ofBits (F := Ideal) .f32 0x00000000#32))) hlt (ix2 p k)
      = Cert.RowSpec.hidden (fun i => r (ix2 p i)) (fun i k => W (ix2 i k)) (fun k => b (ix2 (0 : Fin 1) k)) k := by
  rw [shapeCast_self]
  unfold Cert.RowSpec.hidden
  show max (matmul dot_S4096x128_S128x256_S4096x256_1_0_0_1_n_n none r (truncf .bf16 W hlt)
        (constant (F := Ideal) S4096x256 .f32 0x00000000#32) (ix2 p k) + broadcastTo S4096x256 b hb (ix2 p k))
      (Ideal.ofBits .f32 0x00000000#32) = max ((∑ i : Fin 128, r (ix2 p i) * W (ix2 i k)) + b (ix2 (0 : Fin 1) k)) 0
  rw [matmul_hid_apply, broadcastTo_1b_ab_apply, Ideal.ofBits_zero_f32]
  rfl

/-- The last stage at entry (p, q): row p of the 4096 × 512 operand times the 512 × 64 matrix, plus the bias. -/
theorem out_stage (v : FVec Ideal S4096x512 .bf16) (W : FVec Ideal S512x64 .f32) (b : FVec Ideal S1x64 .f32)
    (hs : S1x64.ShapeCasts S1x64) (hb : S1x64.Broadcasts S4096x64)
    (hlt : FTy.bits .bf16 < FTy.bits .f32) (p : Fin 4096) (q : Fin 64) :
    addf (matmul dot_S4096x512_S512x64_S4096x64_1_0_0_1_n_n none v (truncf .bf16 W hlt)
          (constant (F := Ideal) S4096x64 .f32 0x00000000#32))
        (broadcastTo S4096x64 (shapeCast S1x64 b hs) hb) (ix2 p q)
      = (∑ k : Fin 512, v (ix2 p k) * W (ix2 k q)) + b (ix2 (0 : Fin 1) q) := by
  rw [shapeCast_self]
  show matmul dot_S4096x512_S512x64_S4096x64_1_0_0_1_n_n none v (truncf .bf16 W hlt)
        (constant (F := Ideal) S4096x64 .f32 0x00000000#32) (ix2 p q) + broadcastTo S4096x64 b hb (ix2 p q) = _
  rw [matmul_out_apply, broadcastTo_1b_ab_apply]
  rfl

/-! ## The payload of the ten blocks, read at an entry -/

/-- Entry (p, q) of the body's arithmetic on ten blocks: the last stage over the two hidden stages laid side by side,
    the second hidden stage over the one-hop stage. -/
theorem payload_apply (x0 : FVec Ideal S4096x128 .bf16) (x1 : FVec Ideal S4096x128 .f32) (x2 : FVec Ideal S4096x1 .f32)
    (x3 : FVec Ideal S128x128 .f32) (x4 : FVec Ideal S128x256 .f32) (x5 : FVec Ideal S1x256 .f32)
    (x6 : FVec Ideal S128x256 .f32) (x7 : FVec Ideal S1x256 .f32) (x8 : FVec Ideal S512x64 .f32)
    (x9 : FVec Ideal S1x64 .f32) (p : Fin 4096) (q : Fin 64) :
    k0_pay1 (F := Ideal) (k0_pay2 (F := Ideal) x0 x1 x2 x3 x4 x5 x6 x7) (k0_pay3 (F := Ideal) x8) x9 (ix2 p q)
      = Cert.RowSpec.rowK (fun k => x0 (ix2 p k)) (fun l => x1 (ix2 p l)) (x2 (ix2 p (0 : Fin 1)))
          (fun l i => x3 (ix2 l i)) (fun i k => x4 (ix2 i k)) (fun k => x5 (ix2 (0 : Fin 1) k))
          (fun i k => x6 (ix2 i k)) (fun k => x7 (ix2 (0 : Fin 1) k))
          (fun k j => x8 (ix2 k j)) (fun j => x9 (ix2 (0 : Fin 1) j)) q := by
  unfold k0_pay1 k0_pay2 k0_pay3 Cert.RowSpec.rowK
  refine (out_stage _ _ _ _ _ _ p q).trans ?_
  rw [shapeCast_self x8]
  refine congrArg (fun z => z + x9 (ix2 (0 : Fin 1) q))
    (Finset.sum_congr rfl fun k _ => congrArg (fun z => z * x8 (ix2 k q)) ?_)
  refine (concatenate_apply _ _ _ p k).trans ?_
  unfold Cert.RowSpec.cat
  by_cases hk : k.val < 256
  · rw [dif_pos hk, dif_pos hk, shapeCast_self x0]
    exact hidden_stage _ _ _ _ _ _ p ⟨k.val, hk⟩
  · rw [dif_neg hk, dif_neg hk]
    refine (hidden_stage _ _ _ _ _ _ p _).trans ?_
    refine congrArg (fun r => Cert.RowSpec.hidden r (fun i k => x6 (ix2 i k)) (fun k => x7 (ix2 (0 : Fin 1) k)) _)
      (funext fun i => ?_)
    exact hop_stage x1 x2 x3 _ _ _ _ p i

/-- Entry (p, q) of the block the body stores is the kernel's arrangement of one output row, of row p of the
    feature block, row p of the block of neighbour sums, entry p of the column of reciprocal degrees, and the weights. -/
theorem blockOut_apply (x0 : Vec Ideal S4096x128 .bf16) (x1 : Vec Ideal S4096x128 .f32) (x2 : Vec Ideal S4096x1 .f32)
    (x3 : Vec Ideal S128x128 .f32) (x4 : Vec Ideal S128x256 .f32) (x5 : Vec Ideal S1x256 .f32) (x6 : Vec Ideal S128x256 .f32)
    (x7 : Vec Ideal S1x256 .f32) (x8 : Vec Ideal S512x64 .f32) (x9 : Vec Ideal S1x64 .f32) (p : Fin 4096) (q : Fin 64) :
    blockOut (F := Ideal) x0 x1 x2 x3 x4 x5 x6 x7 x8 x9 (ix2 p q)
      = Cert.RowSpec.rowK (fun k => x0 (ix2 p k)) (fun l => x1 (ix2 p l)) (x2 (ix2 p (0 : Fin 1)))
          (fun l i => x3 (ix2 l i)) (fun i k => x4 (ix2 i k)) (fun k => x5 (ix2 (0 : Fin 1) k))
          (fun i k => x6 (ix2 i k)) (fun k => x7 (ix2 (0 : Fin 1) k))
          (fun k j => x8 (ix2 k j)) (fun j => x9 (ix2 (0 : Fin 1) j)) q := by
  have hz : (![0, 0] : Fin 2 → Nat) = fun _ => 0 := funext fun a => by fin_cases a <;> rfl
  unfold blockOut
  rw [View.canon_unit_zero hz]
  simp only [View.ld_unit_zero (S := S4096x128) hz, View.ld_unit_zero (S := S4096x1) hz,
    View.ld_unit_zero (S := S128x128) hz, View.ld_unit_zero (S := S128x256) hz, View.ld_unit_zero (S := S1x256) hz,
    View.ld_unit_zero (S := S512x64) hz, View.ld_unit_zero (S := S1x64) hz]
  exact payload_apply x0 x1 x2 x3 x4 x5 x6 x7 x8 x9 p q

end Cert.KernelIdeal.PayloadRow

end
-- ==== Proof.IdealRun.lean ====
/-
  The idealized kernel's run, third part: the body's obligation at every point, the launch, and the result array.

  At point t the body is handed the three row-blocked inputs' buffers just fetched (block t on the rows that exist,
  anything on the rest), the seven whole arrays, and the output's buffer at anything. It overwrites the output's
  buffer with one pure block. Each entry (p, q) of that block depends on row p of the row-blocked inputs only, so on the
  rows that exist it is entry (4096·t + p, q) of the result array `finalOut`, whatever the rest held: the rows
  written back are block t of `finalOut`. The thirteen blocks cover the 50000 rows, so the array ends at `finalOut`.
-/
import proofs.«412223_j5385888989321_3_alg».proof.Proof.IdealBlocks
import proofs.«412223_j5385888989321_3_alg».proof.Proof.PayloadRow
import Idealize.ShloMosaic.Lib.Pipeline.Frame

set_option maxRecDepth 16384

noncomputable section

namespace Cert.KernelIdeal.IdealRun

open Cert.KernelIdeal Cert.KernelIdeal.Gen Cert.KernelIdeal.Body Cert.KernelIdeal.Arrays Cert.KernelIdeal.IdealData
open Cert.KernelIdeal.IdealBlocks Cert.KernelIdeal.PayloadRow
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The whole-array windows' buffers at an entry -/

theorem whole3 (c : Dev nD) (t : Fin cfg0.N) (l : Fin 128) (i : Fin 128) : iblk m c 3 t (ix2 l i) = stWs m c (ix2 l i) :=
  read3 m c t (ix2 l i) l.isLt i.isLt
theorem whole4 (c : Dev nD) (t : Fin cfg0.N) (i : Fin 128) (k : Fin 256) : iblk m c 4 t (ix2 i k) = stW1a m c (ix2 i k) :=
  read4 m c t (ix2 i k) i.isLt k.isLt
theorem whole5 (c : Dev nD) (t : Fin cfg0.N) (z : Fin 1) (k : Fin 256) : iblk m c 5 t (ix2 z k) = stB1a m c (ix2 z k) :=
  read5 m c t (ix2 z k) z.isLt k.isLt
theorem whole6 (c : Dev nD) (t : Fin cfg0.N) (i : Fin 128) (k : Fin 256) : iblk m c 6 t (ix2 i k) = stW2a m c (ix2 i k) :=
  read6 m c t (ix2 i k) i.isLt k.isLt
theorem whole7 (c : Dev nD) (t : Fin cfg0.N) (z : Fin 1) (k : Fin 256) : iblk m c 7 t (ix2 z k) = stB2a m c (ix2 z k) :=
  read7 m c t (ix2 z k) z.isLt k.isLt
theorem whole8 (c : Dev nD) (t : Fin cfg0.N) (k : Fin 512) (j : Fin 64) : iblk m c 8 t (ix2 k j) = stW12 m c (ix2 k j) :=
  read8 m c t (ix2 k j) k.isLt j.isLt
theorem whole9 (c : Dev nD) (t : Fin cfg0.N) (z : Fin 1) (j : Fin 64) : iblk m c 9 t (ix2 z j) = stB12 m c (ix2 z j) :=
  read9 m c t (ix2 z j) z.isLt j.isLt

/-! ## The rows the body writes back -/

/-- Whatever the row-blocked inputs' buffers held past the array's end, the rows of the stored block that exist are
    block t of the result array. -/
theorem out_rows (c : Dev nD) (t : Fin cfg0.N) (d0 : S4096x128.Idx → EReal) (d1 : S4096x128.Idx → EReal) (d2 : S4096x1.Idx → EReal) :
    win0_10.cut (grid0.coords t)
        (blockOut (F := Ideal) (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t)
          (iblk m c 7 t) (iblk m c 8 t) (iblk m c 9 t))
      = (win0_10.blk t).view.read (Elt Ideal) (finalOut m c) := by
  funext y
  have hp : (y 0).val < win0_10.xsize (grid0.coords t) 0 := (y 0).isLt
  have hq : (y 1).val < 64 := by
    have h : (y 1).val < win0_10.xsize (grid0.coords t) 1 := (y 1).isLt
    have e : win0_10.xsize (grid0.coords t) 1 = 64 := (cut_facts t).2.2.2.2.2.2.1
    omega
  have hp4 : (y 0).val < 4096 := lt_of_lt_of_le hp (cut_facts t).2.2.2.2.2.2.2.2
  have hn : t.val * 4096 + (y 0).val < 50000 := by have := (cut_facts t).2.2.2.2.2.2.2.1; omega
  rw [readOut m c t y hn hq]
  have hx : win0_10.xinj (grid0.coords t) y = ix2 (⟨(y 0).val, hp4⟩ : Fin 4096) (⟨(y 1).val, hq⟩ : Fin 64) :=
    funext fun a => by match a with | ⟨0, _⟩ => rfl | ⟨1, _⟩ => rfl
  show blockOut (F := Ideal) _ _ _ _ _ _ _ _ _ _ (win0_10.xinj (grid0.coords t) y) = _
  rw [hx, blockOut_apply]
  unfold finalAt
  have e0 : (fun k => win0_0.fill (grid0.coords t) d0 (iblk m c 0 t) (ix2 (⟨(y 0).val, hp4⟩ : Fin 4096) k))
      = fun k => stFeat m c (ix2 ⟨t.val * 4096 + (y 0).val, hn⟩ k) := funext fun k => fill0_apply m c t d0 (⟨(y 0).val, hp4⟩ : Fin 4096) k hp hn
  have e1 : (fun l => win0_1.fill (grid0.coords t) d1 (iblk m c 1 t) (ix2 (⟨(y 0).val, hp4⟩ : Fin 4096) l))
      = fun l => stSums m c (ix2 ⟨t.val * 4096 + (y 0).val, hn⟩ l) := funext fun l => fill1_apply m c t d1 (⟨(y 0).val, hp4⟩ : Fin 4096) l hp hn
  have e2 : win0_2.fill (grid0.coords t) d2 (iblk m c 2 t) (ix2 (⟨(y 0).val, hp4⟩ : Fin 4096) (0 : Fin 1))
      = stRecip m c (ix2 ⟨t.val * 4096 + (y 0).val, hn⟩ (0 : Fin 1)) := fill2_apply m c t d2 (⟨(y 0).val, hp4⟩ : Fin 4096) (0 : Fin 1) hp hn
  have e3 : (fun l i => iblk m c 3 t (ix2 l i)) = fun l i => stWs m c (ix2 l i) := funext fun l => funext fun i => whole3 m c t l i
  have e4 : (fun i k => iblk m c 4 t (ix2 i k)) = fun i k => stW1a m c (ix2 i k) := funext fun i => funext fun k => whole4 m c t i k
  have e5 : (fun k => iblk m c 5 t (ix2 (0 : Fin 1) k)) = fun k => stB1a m c (ix2 (0 : Fin 1) k) := funext fun k => whole5 m c t 0 k
  have e6 : (fun i k => iblk m c 6 t (ix2 i k)) = fun i k => stW2a m c (ix2 i k) := funext fun i => funext fun k => whole6 m c t i k
  have e7 : (fun k => iblk m c 7 t (ix2 (0 : Fin 1) k)) = fun k => stB2a m c (ix2 (0 : Fin 1) k) := funext fun k => whole7 m c t 0 k
  have e8 : (fun k j => iblk m c 8 t (ix2 k j)) = fun k j => stW12 m c (ix2 k j) := funext fun k => funext fun j => whole8 m c t k j
  have e9 : (fun j => iblk m c 9 t (ix2 (0 : Fin 1) j)) = fun j => stB12 m c (ix2 (0 : Fin 1) j) := funext fun j => whole9 m c t 0 j
  rw [e0, e1, e2, e3, e4, e5, e6, e7, e8, e9]

/-! ## The body's obligation -/

set_option maxHeartbeats 2000000 in
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_0 m c t d0, before0_1 m c t d1, before0_2 m c t d2, before0_3 m c t d3, before0_4 m c t d4, before0_5 m c t d5,
    before0_6 m c t d6, before0_7 m c t d7, before0_8 m c t d8, before0_9 m c t d9, before0_10 m c t d10]
  iapply (sound_kernel (F := Ideal) c Set.univ (grid0.coords t) _ _ _ _ _ _ _ _ _ _ _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t)
    (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) ((dats m 0 c).after 0 t)))
    rw [after0_0, Window.cut_fill]
  isplitl [H1]
  · iexists d1
    change _ ⊢ owns (c : Thread nD τ) (st0_1 t) fullShare (win0_1.fill (grid0.coords t) d1 (win0_1.cut (grid0.coords t) ((dats m 0 c).after 1 t)))
    rw [after0_1, Window.cut_fill]
  isplitl [H2]
  · iexists d2
    change _ ⊢ owns (c : Thread nD τ) (st0_2 t) fullShare (win0_2.fill (grid0.coords t) d2 (win0_2.cut (grid0.coords t) ((dats m 0 c).after 2 t)))
    rw [after0_2, Window.cut_fill]
  isplitl [H3]; · rw [after0_3]; iexact H3
  isplitl [H4]; · rw [after0_4]; iexact H4
  isplitl [H5]; · rw [after0_5]; iexact H5
  isplitl [H6]; · rw [after0_6]; iexact H6
  isplitl [H7]; · rw [after0_7]; iexact H7
  isplitl [H8]; · rw [after0_8]; iexact H8
  isplitl [H9]; · rw [after0_9]; iexact H9
  · iexists (blockOut (F := Ideal) (win0_0.fill (grid0.coords t) d0 (iblk m c 0 t)) (win0_1.fill (grid0.coords t) d1 (iblk m c 1 t))
      (win0_2.fill (grid0.coords t) d2 (iblk m c 2 t)) (iblk m c 3 t) (iblk m c 4 t) (iblk m c 5 t) (iblk m c 6 t)
      (iblk m c 7 t) (iblk m c 8 t) (iblk m c 9 t))
    change _ ⊢ owns (c : Thread nD τ) (st0_10 t) fullShare (win0_10.fill (grid0.coords t) _ (win0_10.cut (grid0.coords t) ((dats m 0 c).after 10 t)))
    rw [win0_10.fill_congr_cut (grid0.coords t) (by rw [after0_10, Window.cut_fill]; exact out_rows m c t d0 d1 d2)]

/-! ## The run and the result -/

set_option backward.isDefEq.respectTransparency.types false in
/-- Every weakly fair execution terminates without a fault, every staged array ending at what the write-backs make of
    it and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The result array -/

/-- What point t writes back is block t of the result. -/
theorem flushed_eq (c : Dev nD) (t : Fin cfg0.N) :
    (dats m 0 c).flushed 10 t = ((cfg0.win 10).blk t).view.read (Elt Ideal) (finalOut m c) := by
  show (cfg0.win 10).cut (grid0.coords t) ((dats m 0 c).after 10 t) = _
  rw [after0_10]
  exact win0_10.cut_fill _ _ _

/-- An entry of the array is in point t's block iff each coordinate is in the block's range, cut at the array's end. -/
theorem mem_blk (t : Fin cfg0.N) (i : S50000x64.Idx) :
    i ∈ ((cfg0.win 10).blk t).view.set
      ↔ ∀ a : Fin 2, win0_10.index t a * S4096x64.size a ≤ (i a).val
          ∧ (i a).val < win0_10.index t a * S4096x64.size a + win0_10.xsize (grid0.coords t) a := by
  show i ∈ ((View.whole main_v30).slice (win0_10.rect t)).set ↔ _
  rw [View.set_slice_whole, Rect.mem_set_unit]
  exact Iff.rfl

/-- A block is whole unless it reaches the array's end, where it stops. -/
theorem cut_exact : ∀ t : Fin cfg0.N,
    (win0_10.xsize (grid0.coords t) 0 = 4096 ∧ (t.val + 1) * 4096 ≤ 50000)
      ∨ t.val * 4096 + win0_10.xsize (grid0.coords t) 0 = 50000 :=
  (by decide +kernel : ∀ t : Fin grid0.N, _)

/-- Row r lies in the block of point r / 4096: the thirteen blocks cover the array. -/
theorem cover (c : Dev nD) (i : S50000x64.Idx) :
    ∃ t : Fin cfg0.N, (cfg0.win 10).flush t = true ∧ i ∈ ((cfg0.win 10).blk t).view.set := by
  have hi0 : (i 0).val < 50000 := idx2_lt0 i
  have hi1 : (i 1).val < 64 := idx2_lt1 i
  have hN : (i 0).val / 4096 < grid0.N := by rw [N_0]; omega
  refine ⟨⟨(i 0).val / 4096, hN⟩, flush0_10 _, ?_⟩
  rw [mem_blk]
  have hx := index_facts ⟨(i 0).val / 4096, hN⟩
  have hc := cut_facts ⟨(i 0).val / 4096, hN⟩
  have he := cut_exact ⟨(i 0).val / 4096, hN⟩
  intro a
  match a with
  | ⟨0, _⟩ =>
    show win0_10.index ⟨(i 0).val / 4096, hN⟩ 0 * 4096 ≤ (i 0).val
      ∧ (i 0).val < win0_10.index ⟨(i 0).val / 4096, hN⟩ 0 * 4096 + win0_10.xsize (grid0.coords ⟨(i 0).val / 4096, hN⟩) 0
    rw [hx.2.2.2.2.2.2.1]
    show (i 0).val / 4096 * 4096 ≤ (i 0).val ∧ (i 0).val < (i 0).val / 4096 * 4096 + win0_10.xsize (grid0.coords ⟨(i 0).val / 4096, hN⟩) 0
    have he' : (win0_10.xsize (grid0.coords ⟨(i 0).val / 4096, hN⟩) 0 = 4096 ∧ ((i 0).val / 4096 + 1) * 4096 ≤ 50000)
        ∨ (i 0).val / 4096 * 4096 + win0_10.xsize (grid0.coords ⟨(i 0).val / 4096, hN⟩) 0 = 50000 := he
    omega
  | ⟨1, _⟩ =>
    show win0_10.index ⟨(i 0).val / 4096, hN⟩ 1 * 64 ≤ (i 1).val
      ∧ (i 1).val < win0_10.index ⟨(i 0).val / 4096, hN⟩ 1 * 64 + win0_10.xsize (grid0.coords ⟨(i 0).val / 4096, hN⟩) 1
    rw [hx.2.2.2.2.2.2.2, hc.2.2.2.2.2.2.1]
    omega

/-- The result array after the run. -/
theorem final_out (c : Dev nD) : (dats m 0 c).arrAt 10 cfg0.N = finalOut m c :=
  (dats m 0 c).arrAt_eq_of_cover 10 (finalOut m c) (fun t _ => flushed_eq m c t) (cover c)

/-- The run, read at the program's result and arguments: the result ends at `finalOut`, the arguments as launched. -/
theorem run_value : θ_run defs (onTc (τ := τ) (main (F := Ideal))) ⟨m, fun _ => 0, ρ⟩ (fun r => ∀ c : Dev nD,
      r.2.mem ((c.tc : Thread nD τ).loc main_v30) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 10).trans (final_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 6).trans (((dats m 0 c).arrAt_in 6 rfl _).trans ((A_eq m c 6).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.IdealRun

end
-- ==== Proof.HostArrays.lean ====
/-
  The arrays the region finds, as the host operations before it leave them.
-/
import proofs.«412223_j5385888989321_3_alg».proof.Proof.Arrays
import proofs.«412223_j5385888989321_3_alg».proof.Proof.RowSpec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.HostArrays

open Cert.KernelIdeal Cert.KernelIdeal.Gen Cert.KernelIdeal.Arrays
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The source node of each edge as the gather reads it: a negative entry of the first row of the edge list wrapped
    once by the number of nodes. -/
def srcOf (ei : IVec S2x600000 32) : IVec S600000 32 :=
  select (cmpi .slt (shapeCast _ (extractStridedSlice S1x600000 ![0, 0] ei slices_S2x600000_S1x600000_0_0) shapeCasts_S1x600000_S600000)
      (broadcastInDim S600000 ![] bcast_S_S600000 (constantI S_ 32 0#32)))
    (addi (shapeCast _ (extractStridedSlice S1x600000 ![0, 0] ei slices_S2x600000_S1x600000_0_0) shapeCasts_S1x600000_S600000)
      (broadcastInDim S600000 ![] bcast_S_S600000 (constantI S_ 32 50000#32)))
    (shapeCast _ (extractStridedSlice S1x600000 ![0, 0] ei slices_S2x600000_S1x600000_0_0) shapeCasts_S1x600000_S600000)

/-- The target node of each edge: the second row of the edge list. -/
def dstOf (ei : IVec S2x600000 32) : IVec S600000 32 :=
  shapeCast _ (extractStridedSlice S1x600000 ![1, 0] ei slices_S2x600000_S1x600000_1_0) shapeCasts_S1x600000_S600000

/-- The neighbour sums: the rows of the features gathered at the edges' sources, scattered with addition onto zero at
    the edges' targets. -/
def sumsOf (x : FVec Ideal S50000x128 .f32) (ei : IVec S2x600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 (dstOf ei))
    (extf .f32 (Host.gather gather_S50000x128_S600000x1_S600000x128_1_0_n_n_0_1_1128 (truncf .bf16 x bitsLt_bf16_f32)
      (broadcastInDim S600000x1 ![0] bcast_S600000_S600000x1_0 (srcOf ei))) bitsLt_bf16_f32)

/-- The in-degrees: ones scattered with addition onto zero at the edges' targets. -/
def degOf (ei : IVec S2x600000 32) : FVec Ideal S50000 .f32 :=
  Host.scatterAdd scatter_S50000_S600000x1_S600000_n_0_0_1
    (broadcastInDim S50000 ![] bcast_S_S50000 (constant S_ .f32 0x00000000#32))
    (broadcastInDim S600000x1 ![0] bcast_S600000_S600000x1_0 (dstOf ei))
    (broadcastInDim S600000 ![] bcast_S_S600000 (constant S_ .f32 0x3F800000#32))

/-- The feature array the region stages is the argument's (a change of format is the identity). -/
theorem feat_apply (n : Fin 50000) (k : Fin 128) : stFeat m c (ix2 n k) = inFeat m c (ix2 n k) := by
  -- the staged array is the argument converted to the narrow format
  have e : @Eq (FVec Ideal S50000x128 .bf16) (V m c main_v4)
      (truncf .bf16 (inFeat m c : FVec Ideal S50000x128 .f32) bitsLt_bf16_f32) := by
    dsimp only [Gen.V, Gen.hostOps0]; after_results_simp <;> rfl
  show V m c main_v4 (ix2 n k) = _
  rw [e]
  exact truncf_apply _ _ _

/-- The array of neighbour sums the region stages. -/
theorem sums_eq : stSums m c = sumsOf (inFeat m c) (inEdges m c) := by
  show V m c main_v15 = _
  unfold sumsOf srcOf dstOf
  -- the operations up to the scatter, composed, are the definition's term
  dsimp only [Gen.V, Gen.hostOps0]; after_results_simp <;> rfl

/-- The column of reciprocal degrees the region stages: one over the larger of the in-degree and one. -/
theorem recip_apply (n : Fin 50000) :
    stRecip m c (ix2 n (0 : Fin 1))
      = Ideal.div (Ideal.ofBits .f32 0x3F800000#32) (max (degOf (inEdges m c) (ix1 n)) (Ideal.ofBits .f32 0x3F800000#32)) := by
  -- the staged column: the all-ones column divided by the larger of the degrees (as a column) and the all-ones column
  have e : @Eq (FVec Ideal S50000x1 .f32) (V m c main_v24)
      (Host.divf (broadcastInDim S50000x1 ![] bcast_S_S50000x1 (constant (F := Ideal) S_ .f32 0x3F800000#32))
        (maximumf (shapeCast S50000x1 (degOf (inEdges m c)) shapeCasts_S50000_S50000x1)
          (broadcastInDim S50000x1 ![] bcast_S_S50000x1 (constant (F := Ideal) S_ .f32 0x3F800000#32)))) := by
    unfold degOf dstOf
    dsimp only [Gen.V, Gen.hostOps0]; after_results_simp <;> rfl
  -- the quotient of two arrays at an index is the quotient of the entries
  have hd : ∀ (a b : FVec Ideal S50000x1 .f32) (i : S50000x1.Idx), Host.divf a b i = Ideal.div (a i) (b i) :=
    fun _ _ _ => rfl
  -- the broadcast of the scalar one reads one everywhere
  have hb : broadcastInDim S50000x1 ![] bcast_S_S50000x1 (constant (F := Ideal) S_ .f32 0x3F800000#32) (ix2 n (0 : Fin 1))
      = Ideal.ofBits .f32 0x3F800000#32 := rfl
  -- the degrees as a column read, at row n, the vector at n
  have hs : shapeCast S50000x1 (degOf (inEdges m c)) shapeCasts_S50000_S50000x1 (ix2 n (0 : Fin 1))
      = degOf (inEdges m c) (ix1 n) :=
    shapeCast_apply _ _ _ _ (by
      rw [Shape.rowMajor_val_one, Shape.rowMajor_val_two]
      show n.val = n.val * 1 + 0
      omega)
  show V m c main_v24 (ix2 n (0 : Fin 1)) = _
  rw [e, hd, maximumf_apply, hb, hs]

/-- The weight matrices no host operation touches are the arguments'. -/
theorem ws_eq : stWs m c = inWs m c := V_main_arg2 m c
theorem w1a_eq : stW1a m c = inW1a m c := V_main_arg3 m c
theorem w2a_eq : stW2a m c = inW2a m c := V_main_arg7 m c

/-- The two biases of the hidden layers, staged as single rows. -/
theorem b1a_apply (k : Fin 256) : stB1a m c (ix2 (0 : Fin 1) k) = inB1a m c (ix1 k) := by
  -- the staged row is the bias vector with a unit axis in front
  have e : (V m c main_v28 : S1x256.Idx → EReal)
      = shapeCast _ (m ((c : Thread nD τ).loc main_arg4)) shapeCasts_S256_S1x256 := by
    dsimp only [Gen.V, Gen.hostOps0]; after_results_simp <;> rfl
  show V m c main_v28 (ix2 (0 : Fin 1) k) = _
  rw [e]
  exact shapeCast_a_1a_apply _ _ _ _
theorem b2a_apply (k : Fin 256) : stB2a m c (ix2 (0 : Fin 1) k) = inB2a m c (ix1 k) := by
  have e : (V m c main_v29 : S1x256.Idx → EReal)
      = shapeCast _ (m ((c : Thread nD τ).loc main_arg8)) shapeCasts_S256_S1x256 := by
    dsimp only [Gen.V, Gen.hostOps0]; after_results_simp <;> rfl
  show V m c main_v29 (ix2 (0 : Fin 1) k) = _
  rw [e]
  exact shapeCast_a_1a_apply _ _ _ _

/-- The stacked output weights: the first branch's 256 rows above the second's. -/
theorem w12_apply (k : Fin 512) (j : Fin 64) :
    stW12 m c (ix2 k j) = Cert.RowSpec.cat (fun k' => inW1b m c (ix2 k' j)) (fun k' => inW2b m c (ix2 k' j)) k := by
  -- the staged matrix is the concatenation of the two arguments along the rows
  have e : @Eq (FVec Ideal S512x64 .f32) (V m c main_v25)
      (concatenate S512x64 0 [⟨S256x64, (inW1b m c : S256x64.Idx → EReal)⟩, ⟨S256x64, (inW2b m c : S256x64.Idx → EReal)⟩]
        concatenates_S256x64_S256x64_S512x64_d0) := by
    -- a concatenation of equal pieces is equal
    have key : ∀ (A A' B B' : S256x64.Idx → EReal), A = A' → B = B' →
        concatenate S512x64 0 [⟨S256x64, A⟩, ⟨S256x64, B⟩] concatenates_S256x64_S256x64_S512x64_d0
          = concatenate S512x64 0 [⟨S256x64, A'⟩, ⟨S256x64, B'⟩] concatenates_S256x64_S256x64_S512x64_d0 := by
      intro A A' B B' hA hB; rw [hA, hB]
    dsimp only [Gen.V, Gen.hostOps0]; after_results_simp
    refine key _ _ _ _ ?_ ?_ <;> (after_results_simp <;> rfl)
  show V m c main_v25 (ix2 k j) = _
  rw [e]
  unfold Cert.RowSpec.cat
  by_cases h : k.val < 256
  · -- a row of the upper half is the first matrix's row
    rw [dif_pos h]
    exact concatenate_pair_apply_left (s₁ := S256x64) (s₂ := S256x64) _ _ _ _ (ix2 k j) rfl
      (ix2 (⟨k.val, h⟩ : Fin 256) j) (fun b => by
        match b with
        | ⟨0, _⟩ => rfl
        | ⟨1, _⟩ => rfl)
  · -- a row of the lower half is the second matrix's row, 256 less
    rw [dif_neg h]
    have hk : k.val - 256 < 256 := by have := k.isLt; omega
    exact concatenate_pair_apply_right (s₁ := S256x64) (s₂ := S256x64) _ _ _ _ (ix2 k j) rfl rfl
      (ix2 (⟨k.val - 256, hk⟩ : Fin 256) j) (fun b hb => by
        match b, hb with
        | ⟨0, _⟩, hb => exact absurd rfl hb
        | ⟨1, _⟩, _ => rfl) (by
        show k.val - 256 + 256 = k.val
        omega)

/-- The summed output bias, staged as a single row. -/
theorem b12_apply (j : Fin 64) : stB12 m c (ix2 (0 : Fin 1) j) = inB1b m c (ix1 j) + inB2b m c (ix1 j) := by
  -- the staged row is the sum of the two bias vectors with a unit axis in front
  have e : @Eq (FVec Ideal S1x64 .f32) (V m c main_v27)
      (shapeCast _ (addf (inB1b m c : FVec Ideal S64 .f32) (inB2b m c : FVec Ideal S64 .f32)) shapeCasts_S64_S1x64) := by
    dsimp only [Gen.V, Gen.hostOps0]; after_results_simp <;> rfl
  show V m c main_v27 (ix2 (0 : Fin 1) j) = _
  rw [e, shapeCast_a_1a_apply]
  exact addf_apply _ _ _

end Cert.KernelIdeal.HostArrays

end
-- ==== Proof.RefRead.lean ====
/-
  The reference program read one operation at a time: this module only brings the generated run of the reference
  and its read-at-an-index lemmas into the certificate, for the modules that state the reference's value.
-/
import proofs.«412223_j5385888989321_3_alg».proof.Proof.Gen.ReferenceIdeal.Run
import proofs.«412223_j5385888989321_3_alg».proof.Proof.Gen.ReferenceIdeal.Read
-- ==== Proof.RefRow.lean ====
/-
  The reference's result read at one entry.
-/
import proofs.«412223_j5385888989321_3_alg».proof.Proof.RefRead
import proofs.«412223_j5385888989321_3_alg».proof.Proof.RowSpec
import Idealize.ShloMosaic.Lib.ValueIdx
import Idealize.ShloMosaic.Lib.Pipeline.Value
import Idealize.ShloMosaic.PureOps.Ideal.Laws

set_option maxRecDepth 16384

noncomputable section

namespace Cert.ReferenceIdeal.RefRow

open Cert.ReferenceIdeal Cert.ReferenceIdeal.Read
open Idealize.ShloMosaic Idealize.ShloMosaic.ValueIdx
open scoped BigOperators

section Rows

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128x256, .f32⟩ : BufTy).Contents (Elt Ideal))
  (x4 : (⟨S256, .f32⟩ : BufTy).Contents (Elt Ideal)) (x5 : (⟨S256x64, .f32⟩ : BufTy).Contents (Elt Ideal))
  (x6 : (⟨S64, .f32⟩ : BufTy).Contents (Elt Ideal)) (x7 : (⟨S128x256, .f32⟩ : BufTy).Contents (Elt Ideal))
  (x8 : (⟨S256, .f32⟩ : BufTy).Contents (Elt Ideal)) (x9 : (⟨S256x64, .f32⟩ : BufTy).Contents (Elt Ideal))
  (x10 : (⟨S64, .f32⟩ : BufTy).Contents (Elt Ideal))

/-! ### The operand indices at explicit coordinates

Each product reads its left operand at (row, summation index) and its right operand at (summation index, column); each
bias is read at the column alone; the divisor is read at the row alone. -/

theorem lidx24 (n : Fin 50000) (k : Fin 256) (i : Fin 128) : lidx_main_v24 (ix2 n k) i = ix2 n i :=
  funext fun a => Fin.ext (by match a with | ⟨0, _⟩ => rfl | ⟨1, _⟩ => rfl)
theorem ridx24 (n : Fin 50000) (k : Fin 256) (i : Fin 128) : ridx_main_v24 (ix2 n k) i = ix2 i k :=
  funext fun a => Fin.ext (by match a with | ⟨0, _⟩ => rfl | ⟨1, _⟩ => rfl)
theorem idx25_26 (n : Fin 50000) (k : Fin 256) : idx_main_v25 (idx_main_v26 (ix2 n k)) = ix1 k :=
  funext fun a => Fin.ext (by match a with | ⟨0, _⟩ => rfl)
theorem lidx29 (n : Fin 50000) (j : Fin 64) (k : Fin 256) : lidx_main_v29 (ix2 n j) k = ix2 n k :=
  funext fun a => Fin.ext (by match a with | ⟨0, _⟩ => rfl | ⟨1, _⟩ => rfl)
theorem ridx29 (n : Fin 50000) (j : Fin 64) (k : Fin 256) : ridx_main_v29 (ix2 n j) k = ix2 k j :=
  funext fun a => Fin.ext (by match a with | ⟨0, _⟩ => rfl | ⟨1, _⟩ => rfl)
theorem idx30_31 (n : Fin 50000) (j : Fin 64) : idx_main_v30 (idx_main_v31 (ix2 n j)) = ix1 j :=
  funext fun a => Fin.ext (by match a with | ⟨0, _⟩ => rfl)
theorem idx20_21 (n : Fin 50000) (l : Fin 128) : idx_main_v20 (idx_main_v21 (ix2 n l)) = ix1 n :=
  funext fun a => Fin.ext (by match a with | ⟨0, _⟩ => rfl)
theorem lidx23 (n : Fin 50000) (i : Fin 128) (l : Fin 128) : lidx_main_v23 (ix2 n i) l = ix2 n l :=
  funext fun a => Fin.ext (by match a with | ⟨0, _⟩ => rfl | ⟨1, _⟩ => rfl)
theorem ridx23 (n : Fin 50000) (i : Fin 128) (l : Fin 128) : ridx_main_v23 (ix2 n i) l = ix2 l i :=
  funext fun a => Fin.ext (by match a with | ⟨0, _⟩ => rfl | ⟨1, _⟩ => rfl)
theorem lidx33 (n : Fin 50000) (k : Fin 256) (i : Fin 128) : lidx_main_v33 (ix2 n k) i = ix2 n i :=
  funext fun a => Fin.ext (by match a with | ⟨0, _⟩ => rfl | ⟨1, _⟩ => rfl)
theorem ridx33 (n : Fin 50000) (k : Fin 256) (i : Fin 128) : ridx_main_v33 (ix2 n k) i = ix2 i k :=
  funext fun a => Fin.ext (by match a with | ⟨0, _⟩ => rfl | ⟨1, _⟩ => rfl)
theorem idx34_35 (n : Fin 50000) (k : Fin 256) : idx_main_v34 (idx_main_v35 (ix2 n k)) = ix1 k :=
  funext fun a => Fin.ext (by match a with | ⟨0, _⟩ => rfl)
theorem lidx38 (n : Fin 50000) (j : Fin 64) (k : Fin 256) : lidx_main_v38 (ix2 n j) k = ix2 n k :=
  funext fun a => Fin.ext (by match a with | ⟨0, _⟩ => rfl | ⟨1, _⟩ => rfl)
theorem ridx38 (n : Fin 50000) (j : Fin 64) (k : Fin 256) : ridx_main_v38 (ix2 n j) k = ix2 k j :=
  funext fun a => Fin.ext (by match a with | ⟨0, _⟩ => rfl | ⟨1, _⟩ => rfl)
theorem idx39_40 (n : Fin 50000) (j : Fin 64) : idx_main_v39 (idx_main_v40 (ix2 n j)) = ix1 j :=
  funext fun a => Fin.ext (by match a with | ⟨0, _⟩ => rfl)

/-! ### The stages at explicit coordinates, bottom-up -/

/-- The first hidden row: entry (n, k) is the rectified affine image of node n's own feature row. -/
theorem v28_at (n : Fin 50000) (k : Fin 256) :
    val_main_v28 (F := Ideal) x0 x3 x4 (ix2 n k)
      = Cert.RowSpec.hidden (fun i => x0 (ix2 n i)) (fun i k => x3 (ix2 i k)) (fun k => x4 (ix1 k)) k := by
  rw [val_main_v28_apply, val_main_v27_apply, val_main_v24_apply, val_main_v26_apply, val_main_v25_apply,
    val_main_call0_v0_apply, val_main_call0_cst_apply, idx25_26, Ideal.maximumf_def, Ideal.addf_def, Ideal.ofBits_def,
    Ideal.ofBits_zero_f32]
  unfold Cert.RowSpec.hidden
  refine congrArg (fun t => max (t + x4 (ix1 k)) 0) (Finset.sum_congr rfl fun i _ => ?_)
  rw [lidx24, ridx24]

/-- The mean: entry (n, l) is the neighbour sum there over the clamped degree of n. -/
theorem v22_at (n : Fin 50000) (l : Fin 128) :
    val_main_v22 (F := Ideal) x0 x1 (ix2 n l)
      = Ideal.div (val_main_v13 (F := Ideal) x0 x1 (ix2 n l)) (val_main_v19 (F := Ideal) x1 (ix1 n)) := by
  rw [val_main_v22_apply, val_main_v21_apply, val_main_v20_apply, idx20_21, Ideal.hostDivf_def]

/-- One hop: entry (n, i) is the mean row of n against column i of the hop matrix. -/
theorem v23_at (n : Fin 50000) (i : Fin 128) :
    val_main_v23 (F := Ideal) x0 x1 x2 (ix2 n i)
      = Cert.RowSpec.hop (fun l => Ideal.div (val_main_v13 (F := Ideal) x0 x1 (ix2 n l)) (val_main_v19 (F := Ideal) x1 (ix1 n)))
          (fun l i => x2 (ix2 l i)) i := by
  rw [val_main_v23_apply]
  unfold Cert.RowSpec.hop
  refine Finset.sum_congr rfl fun l _ => ?_
  rw [lidx23, ridx23, v22_at]

/-- The second hidden row: entry (n, k) is the rectified affine image of the one-hop row of n. -/
theorem v37_at (n : Fin 50000) (k : Fin 256) :
    val_main_v37 (F := Ideal) x0 x1 x2 x7 x8 (ix2 n k)
      = Cert.RowSpec.hidden
          (Cert.RowSpec.hop (fun l => Ideal.div (val_main_v13 (F := Ideal) x0 x1 (ix2 n l)) (val_main_v19 (F := Ideal) x1 (ix1 n)))
            (fun l i => x2 (ix2 l i)))
          (fun i k => x7 (ix2 i k)) (fun k => x8 (ix1 k)) k := by
  rw [val_main_v37_apply, val_main_v36_apply, val_main_v33_apply, val_main_v35_apply, val_main_v34_apply,
    val_main_call1_v0_apply, val_main_call1_cst_apply, idx34_35, Ideal.maximumf_def, Ideal.addf_def, Ideal.ofBits_def,
    Ideal.ofBits_zero_f32]
  unfold Cert.RowSpec.hidden
  refine congrArg (fun t => max (t + x8 (ix1 k)) 0) (Finset.sum_congr rfl fun i _ => ?_)
  rw [lidx33, ridx33, v23_at]

/-- The first branch: entry (n, j) is the first hidden row of n against column j of its output matrix, plus the bias. -/
theorem v32_at (n : Fin 50000) (j : Fin 64) :
    val_main_v32 (F := Ideal) x0 x3 x4 x5 x6 (ix2 n j)
      = (∑ k, Cert.RowSpec.hidden (fun i => x0 (ix2 n i)) (fun i k => x3 (ix2 i k)) (fun k => x4 (ix1 k)) k * x5 (ix2 k j))
          + x6 (ix1 j) := by
  rw [val_main_v32_apply, val_main_v29_apply, val_main_v31_apply, val_main_v30_apply, idx30_31, Ideal.addf_def]
  refine congrArg (fun t => t + x6 (ix1 j)) (Finset.sum_congr rfl fun k _ => ?_)
  rw [lidx29, ridx29, v28_at]

/-- The second branch: entry (n, j) is the second hidden row of n against column j of its output matrix, plus the bias. -/
theorem v41_at (n : Fin 50000) (j : Fin 64) :
    val_main_v41 (F := Ideal) x0 x1 x2 x7 x8 x9 x10 (ix2 n j)
      = (∑ k, Cert.RowSpec.hidden
            (Cert.RowSpec.hop (fun l => Ideal.div (val_main_v13 (F := Ideal) x0 x1 (ix2 n l)) (val_main_v19 (F := Ideal) x1 (ix1 n)))
              (fun l i => x2 (ix2 l i)))
            (fun i k => x7 (ix2 i k)) (fun k => x8 (ix1 k)) k * x9 (ix2 k j))
          + x10 (ix1 j) := by
  rw [val_main_v41_apply, val_main_v38_apply, val_main_v40_apply, val_main_v39_apply, idx39_40, Ideal.addf_def]
  refine congrArg (fun t => t + x10 (ix1 j)) (Finset.sum_congr rfl fun k _ => ?_)
  rw [lidx38, ridx38, v37_at]

end Rows

/-- Entry (n, j) of the reference's result is the reference's arrangement of one output row, of node n's feature
    row, row n of the neighbour sums (the scatter of gathered rows, kept whole) and the clamped degree of n (the
    larger of the scattered count and one, kept whole). -/
theorem ref_apply (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128x256, .f32⟩ : BufTy).Contents (Elt Ideal))
    (x4 : (⟨S256, .f32⟩ : BufTy).Contents (Elt Ideal)) (x5 : (⟨S256x64, .f32⟩ : BufTy).Contents (Elt Ideal))
    (x6 : (⟨S64, .f32⟩ : BufTy).Contents (Elt Ideal)) (x7 : (⟨S128x256, .f32⟩ : BufTy).Contents (Elt Ideal))
    (x8 : (⟨S256, .f32⟩ : BufTy).Contents (Elt Ideal)) (x9 : (⟨S256x64, .f32⟩ : BufTy).Contents (Elt Ideal))
    (x10 : (⟨S64, .f32⟩ : BufTy).Contents (Elt Ideal)) (n : Fin 50000) (j : Fin 64) :
    val_main_v42 (F := Ideal) x0 x1 x2 x3 x4 x5 x6 x7 x8 x9 x10 (ix2 n j)
      = Cert.RowSpec.rowR (fun k => x0 (ix2 n k)) (fun l => val_main_v13 (F := Ideal) x0 x1 (ix2 n l))
          (val_main_v19 (F := Ideal) x1 (ix1 n))
          (fun l i => x2 (ix2 l i)) (fun i k => x3 (ix2 i k)) (fun k => x4 (ix1 k)) (fun k j => x5 (ix2 k j)) (fun j => x6 (ix1 j))
          (fun i k => x7 (ix2 i k)) (fun k => x8 (ix1 k)) (fun k j => x9 (ix2 k j)) (fun j => x10 (ix1 j)) j := by
  rw [val_main_v42_apply, Ideal.addf_def, v32_at, v41_at]
  rfl

end Cert.ReferenceIdeal.RefRow

end
-- ==== Proof.Bridge.lean ====
/-
  The two results are one function of the arguments.

  The kernel's result array is, row by row, the kernel's arrangement (RowSpec.rowK) of the arrays its region stages;
  those arrays are the arguments themselves, the stacked weights and summed bias, the scattered neighbour sums, and one
  over the clamped in-degree. The reference's result is, row by row, the reference's arrangement (RowSpec.rowR) of the
  arguments, the same scattered neighbour sums and the same clamped in-degree. The clamped degree is at least one, so it
  is not zero, and the two arrangements agree (RowSpec.rowK_eq_rowR).
-/
import proofs.«412223_j5385888989321_3_alg».proof.Proof.IdealData
import proofs.«412223_j5385888989321_3_alg».proof.Proof.HostArrays
import proofs.«412223_j5385888989321_3_alg».proof.Proof.RefRow

set_option maxRecDepth 16384

noncomputable section

namespace Cert.Bridge

open Cert.KernelIdeal Cert.KernelIdeal.Gen Cert.KernelIdeal.Arrays Cert.KernelIdeal.IdealData Cert.KernelIdeal.HostArrays
open Idealize.ShloMosaic Idealize.ShloMosaic.TcCoe Idealize.ShloMosaic.ValueIdx Idealize.SL.Sem
open scoped BigOperators

/-- The word of the constant 1.0 denotes one. -/
theorem one_word : Ideal.ofBits .f32 0x3F800000#32 = (1 : EReal) := by
  simp [Ideal.ofBits, Ideal.ieee, -EReal.coe_mul]; norm_num

/-- The reference scatters the gathered feature rows exactly as the kernel's host side does (the kernel's detour
    through the narrow format is the identity on extended reals). -/
theorem sums_bridge (x0 : Vec Ideal S50000x128 .f32) (x1 : Vec Ideal S2x600000 .i32) :
    Cert.ReferenceIdeal.Read.val_main_v13 (F := Ideal) x0 x1 = sumsOf x0 x1 := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0 sumsOf srcOf dstOf
  rfl

/-- Likewise the in-degrees. -/
theorem deg_bridge (x1 : Vec Ideal S2x600000 .i32) :
    Cert.ReferenceIdeal.Read.val_main_v17 (F := Ideal) x1 = degOf x1 := by
  unfold Cert.ReferenceIdeal.Read.val_main_v17 Cert.ReferenceIdeal.Read.val_main_v16 Cert.ReferenceIdeal.Read.val_main_v15
    Cert.ReferenceIdeal.Read.val_main_v14 Cert.ReferenceIdeal.Read.val_main_v3 Cert.ReferenceIdeal.Read.val_main_v2
    Cert.ReferenceIdeal.Read.val_main_cst_1 Cert.ReferenceIdeal.Read.val_main_cst_2 degOf dstOf
  rfl

/-- The reference's clamped degree of node n: the larger of the in-degree and one. -/
theorem clamp_bridge (x1 : Vec Ideal S2x600000 .i32) (n : Fin 50000) :
    Cert.ReferenceIdeal.Read.val_main_v19 (F := Ideal) x1 (ix1 n) = max (degOf x1 (ix1 n)) 1 := by
  rw [Cert.ReferenceIdeal.Read.val_main_v19_apply, Cert.ReferenceIdeal.Read.val_main_v18_apply,
    Cert.ReferenceIdeal.Read.val_main_cst_3_apply, deg_bridge]
  show max (degOf x1 (ix1 n)) (Ideal.ofBits .f32 0x3F800000#32) = _
  rw [one_word]

/-- A clamped degree is not zero. -/
theorem clamp_ne_zero (a : EReal) : max a 1 ≠ 0 :=
  ne_of_gt (lt_of_lt_of_le zero_lt_one (le_max_right a 1))

/-- The kernel's result array is the reference's result of the same arguments. -/
theorem final_eq (m : (ℓ : Loc nD τ sig) → Buf (Elt Ideal) ℓ) (c : Dev nD) :
    finalOut m c
      = Cert.ReferenceIdeal.Read.val_main_v42 (F := Ideal) (inFeat m c) (inEdges m c) (inWs m c) (inW1a m c) (inB1a m c)
          (inW1b m c) (inB1b m c) (inW2a m c) (inB2a m c) (inW2b m c) (inB2b m c) := by
  funext i
  obtain ⟨n, j, rfl⟩ : ∃ (n : Fin 50000) (j : Fin 64), i = ix2 n j := ⟨i 0, i 1, eq_ix2 i⟩
  rw [Cert.ReferenceIdeal.RefRow.ref_apply, sums_bridge, clamp_bridge]
  show finalAt m c n j = _
  unfold finalAt
  have h0 : (fun k => stFeat m c (ix2 n k)) = fun k => inFeat m c (ix2 n k) := funext fun k => feat_apply m c n k
  have h1 : (fun l => stSums m c (ix2 n l)) = fun l => sumsOf (inFeat m c) (inEdges m c) (ix2 n l) := by rw [sums_eq]
  have h2 : stRecip m c (ix2 n (0 : Fin 1)) = Ideal.div 1 (max (degOf (inEdges m c) (ix1 n)) 1) := by
    rw [recip_apply, one_word]
  have h3 : (fun l i => stWs m c (ix2 l i)) = fun l i => inWs m c (ix2 l i) := by rw [ws_eq]
  have h4 : (fun i k => stW1a m c (ix2 i k)) = fun i k => inW1a m c (ix2 i k) := by rw [w1a_eq]
  have h5 : (fun k => stB1a m c (ix2 (0 : Fin 1) k)) = fun k => inB1a m c (ix1 k) := funext fun k => b1a_apply m c k
  have h6 : (fun i k => stW2a m c (ix2 i k)) = fun i k => inW2a m c (ix2 i k) := by rw [w2a_eq]
  have h7 : (fun k => stB2a m c (ix2 (0 : Fin 1) k)) = fun k => inB2a m c (ix1 k) := funext fun k => b2a_apply m c k
  have h8 : (fun k j => stW12 m c (ix2 k j))
      = fun k j => Cert.RowSpec.cat (fun k' => inW1b m c (ix2 k' j)) (fun k' => inW2b m c (ix2 k' j)) k :=
    funext fun k => funext fun j => w12_apply m c k j
  have h9 : (fun j => stB12 m c (ix2 (0 : Fin 1) j)) = fun j => inB1b m c (ix1 j) + inB2b m c (ix1 j) :=
    funext fun j => b12_apply m c j
  rw [h0, h1, h2, h3, h4, h5, h6, h7, h8, h9]
  exact Cert.RowSpec.rowK_eq_rowR (clamp_ne_zero _) _ _ _ _ _ _ _ _ _ _ _ _

end Cert.Bridge

end
-- ==== Proof.lean ====
/-
  The certificate: a fused graph layer (mean aggregation over incoming edges, one linear hop, two two-layer branches
  added) as one Pallas kernel over blocks of 4096 nodes, against its plain reference.

  Both programs first gather the features at the edges' sources and scatter them, with addition, at the edges' targets,
  and count the edges into each target the same way; the kernel then hands the rest to one kernel call over 13 blocks of
  rows, the last of which overhangs the 50000 nodes. On the extended reals the two results are equal entry by entry:
    * every output row depends on its own row of the inputs only, so the rows of the last block that do not exist
      change nothing in the rows that do (Proof/IdealRun.lean, over Proof/PayloadRow.lean);
    * the kernel's product with one over the clamped in-degree is the reference's quotient by it, the clamped degree
      being at least one; and its single product of the two hidden rows laid side by side with the two output matrices
      stacked, plus the summed biases, is the reference's sum of the two branches, by splitting a sum over
      512 = 256 + 256 indices and regrouping four addends (Proof/RowSpec.lean); finiteness of the inputs is never used;
    * the gather and the two scatters are the same terms on both sides and are never opened (Proof/Bridge.lean).
  The frames: the idealized kernel's is its value run with the result dropped; the word-level kernel's says nothing of
  the output block (Proof/WordFrame.lean); the reference's is its run. The idealization rewrote nothing.
-/
import proofs.«412223_j5385888989321_3_alg».proof.Defs
import proofs.«412223_j5385888989321_3_alg».proof.Proof.WordFrame
import proofs.«412223_j5385888989321_3_alg».proof.Proof.IdealRun
import proofs.«412223_j5385888989321_3_alg».proof.Proof.Bridge
import proofs.«412223_j5385888989321_3_alg».proof.Proof.RefRead
import proofs.«412223_j5385888989321_3_alg».proof.Proof.Gen.Kernel
import proofs.«412223_j5385888989321_3_alg».proof.Proof.Gen.KernelIdeal
import proofs.«412223_j5385888989321_3_alg».proof.Proof.Gen.ReferenceIdeal
import proofs.«412223_j5385888989321_3_alg».proof.Proof.Gen.Pre_finite_inputs
import Idealize.ShloMosaic.Adequacy
import Idealize.ShloMosaic.Init

noncomputable section

namespace Cert.Proof

open Idealize.ShloMosaic Idealize.SL.Sem

/-- The word-level kernel runs to the end without a fault and leaves its arguments as launched. -/
theorem frame_word : Cert.frame_Kernel := fun m ρ _ => Cert.Kernel.WordFrame.frame (F := Bits) m ρ

/-- So does the idealized kernel: its value run, the result dropped. -/
theorem frame_ideal : Cert.frame_KernelIdeal := fun m ρ _ =>
  (θ_run Cert.KernelIdeal.defs _ _).mono (fun _ h c => (h c).2) (Cert.KernelIdeal.IdealRun.run_value m ρ)

/-- So does the reference: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, the two programs end with one result. -/
theorem algebraic : Cert.algebraic_KernelIdeal_ReferenceIdeal := by
  intro m ρ m' ρ' _ hagree
  refine ⟨fun c => Cert.KernelIdeal.IdealData.finalOut m c, Cert.KernelIdeal.IdealRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  exact (Cert.ReferenceIdeal.Read.val_main_v42_eq _ _ _ _ _ _ _ _ _ _ _).trans (Cert.Bridge.final_eq m c).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
